-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S256x16x96 : Shape := ⟨3, ![256, 16, 96]⟩
abbrev S256x96 : Shape := ⟨2, ![256, 96]⟩
abbrev S256x64x8 : Shape := ⟨3, ![256, 64, 8]⟩
abbrev S256x96x16 : Shape := ⟨3, ![256, 96, 16]⟩
abbrev S256x16 : Shape := ⟨2, ![256, 16]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S256x16x96 : S_.BroadcastsInDim S256x16x96 (![] : Fin 0 → Fin S256x16x96.rank)
  reducesTo_S256x16x96_S_d0_1_2 : S256x16x96.ReducesTo [0, 1, 2] S_
  bcast_S_S256x96 : S_.BroadcastsInDim S256x96 (![] : Fin 0 → Fin S256x96.rank)
  reducesTo_S256x96_S_d0_1 : S256x96.ReducesTo [0, 1] S_
  bcast_S_S256x64x8 : S_.BroadcastsInDim S256x64x8 (![] : Fin 0 → Fin S256x64x8.rank)
  reducesTo_S256x64x8_S_d0_1_2 : S256x64x8.ReducesTo [0, 1, 2] S_
  bcast_S_S256x96x16 : S_.BroadcastsInDim S256x96x16 (![] : Fin 0 → Fin S256x96x16.rank)
  reducesTo_S256x96x16_S_d0_1_2 : S256x96x16.ReducesTo [0, 1, 2] S_
  bcast_S_S256x16 : S_.BroadcastsInDim S256x16 (![] : Fin 0 → Fin S256x16.rank)
  reducesTo_S256x16_S_d0_1 : S256x16.ReducesTo [0, 1] S_

variable [Facts]

def fn_part2 {F : FTy → Type} [FloatOps F] (main_arg7 : FVec F S256x16 .f32) (main_v33 : IVec S_ 1) : IVec S_ 1 :=
  let main_v34 : FVec F S256x16 .f32 := Host.absf main_arg7
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  main_v38

def fn_part1 {F : FTy → Type} [FloatOps F] (main_arg4 : FVec F S256x64x8 .f32) (main_arg5 : FVec F S256x96x16 .f32) (main_arg6 : FVec F S256x16 .f32) (main_arg7 : FVec F S256x16 .f32) (main_v13 : IVec S_ 1) (main_v16 : IVec S256x64x8 1) : IVec S_ 1 :=
  let main_c_5 : IVec S_ 1 := constantI S_ 1 1#1
  let main_v17 : IVec S_ 1 := (fun x v => Host.reduce IntOp.andi x v reducesTo_S256x64x8_S_d0_1_2 h_S_) main_v16 main_c_5
  let main_v18 : IVec S_ 1 := andi main_v13 main_v17
  let main_v19 : FVec F S256x64x8 .f32 := Host.absf main_arg4
  let main_cst_6 : FVec F S_ .f32 := constant S_ .f32 0x7F800000#32
  let main_v20 : FVec F S256x64x8 .f32 := broadcastInDim S256x64x8 ![] bcast_S_S256x64x8 main_cst_6
  let main_v21 : IVec S256x64x8 1 := cmpf .olt main_v19 main_v20
  let main_c_7 : IVec S_ 1 := constantI S_ 1 1#1
  let main_v22 : IVec S_ 1 := (fun x v => Host.reduce IntOp.andi x v reducesTo_S256x64x8_S_d0_1_2 h_S_) main_v21 main_c_7
  let main_v23 : IVec S_ 1 := andi main_v18 main_v22
  let main_v24 : FVec F S256x96x16 .f32 := Host.absf main_arg5
  let main_cst_8 : FVec F S_ .f32 := constant S_ .f32 0x7F800000#32
  let main_v25 : FVec F S256x96x16 .f32 := broadcastInDim S256x96x16 ![] bcast_S_S256x96x16 main_cst_8
  let main_v26 : IVec S256x96x16 1 := cmpf .olt main_v24 main_v25
  let main_c_9 : IVec S_ 1 := constantI S_ 1 1#1
  let main_v27 : IVec S_ 1 := (fun x v => Host.reduce IntOp.andi x v reducesTo_S256x96x16_S_d0_1_2 h_S_) main_v26 main_c_9
  let main_v28 : IVec S_ 1 := andi main_v23 main_v27
  let main_v29 : FVec F S256x16 .f32 := Host.absf main_arg6
  let main_cst_10 : FVec F S_ .f32 := constant S_ .f32 0x7F800000#32
  let main_v30 : FVec F S256x16 .f32 := broadcastInDim S256x16 ![] bcast_S_S256x16 main_cst_10
  let main_v31 : IVec S256x16 1 := cmpf .olt main_v29 main_v30
  let main_c_11 : IVec S_ 1 := constantI S_ 1 1#1
  let main_v32 : IVec S_ 1 := (fun x v => Host.reduce IntOp.andi x v reducesTo_S256x16_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S256x16x96 .f32) (main_arg2 : FVec F S256x96 .f32) (main_arg3 : FVec F S256x64x8 .f32) (main_arg4 : FVec F S256x64x8 .f32) (main_arg5 : FVec F S256x96x16 .f32) (main_arg6 : FVec F S256x16 .f32) (main_arg7 : FVec F S256x16 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S256x16x96 .f32 := Host.absf main_arg1
  let main_cst_0 : FVec F S_ .f32 := constant S_ .f32 0x7F800000#32
  let main_v5 : FVec F S256x16x96 .f32 := broadcastInDim S256x16x96 ![] bcast_S_S256x16x96 main_cst_0
  let main_v6 : IVec S256x16x96 1 := cmpf .olt main_v4 main_v5
  let main_c_1 : IVec S_ 1 := constantI S_ 1 1#1
  let main_v7 : IVec S_ 1 := (fun x v => Host.reduce IntOp.andi x v reducesTo_S256x16x96_S_d0_1_2 h_S_) main_v6 main_c_1
  let main_v8 : IVec S_ 1 := andi main_v3 main_v7
  let main_v9 : FVec F S256x96 .f32 := Host.absf main_arg2
  let main_cst_2 : FVec F S_ .f32 := constant S_ .f32 0x7F800000#32
  let main_v10 : FVec F S256x96 .f32 := broadcastInDim S256x96 ![] bcast_S_S256x96 main_cst_2
  let main_v11 : IVec S256x96 1 := cmpf .olt main_v9 main_v10
  let main_c_3 : IVec S_ 1 := constantI S_ 1 1#1
  let main_v12 : IVec S_ 1 := (fun x v => Host.reduce IntOp.andi x v reducesTo_S256x96_S_d0_1 h_S_) main_v11 main_c_3
  let main_v13 : IVec S_ 1 := andi main_v8 main_v12
  let main_v14 : FVec F S256x64x8 .f32 := Host.absf main_arg3
  let main_cst_4 : FVec F S_ .f32 := constant S_ .f32 0x7F800000#32
  let main_v15 : FVec F S256x64x8 .f32 := broadcastInDim S256x64x8 ![] bcast_S_S256x64x8 main_cst_4
  let main_v16 : IVec S256x64x8 1 := cmpf .olt main_v14 main_v15
  fn_part1 (F := F) main_arg4 main_arg5 main_arg6 main_arg7 main_v13 main_v16
-- ==== Kernel.lean ====
abbrev S4096x4096 : Shape := ⟨2, ![4096, 4096]⟩
abbrev S256x16x96 : Shape := ⟨3, ![256, 16, 96]⟩
abbrev S256x96 : Shape := ⟨2, ![256, 96]⟩
abbrev S256x64x8 : Shape := ⟨3, ![256, 64, 8]⟩
abbrev S256x96x16 : Shape := ⟨3, ![256, 96, 16]⟩
abbrev S256x16 : Shape := ⟨2, ![256, 16]⟩
abbrev S16x64x4x16x64x4 : Shape := ⟨6, ![16, 64, 4, 16, 64, 4]⟩
abbrev S16x16x64x64x4x4 : Shape := ⟨6, ![16, 16, 64, 64, 4, 4]⟩
abbrev S256x64x64x16 : Shape := ⟨4, ![256, 64, 64, 16]⟩
abbrev S16x16x64x16 : Shape := ⟨4, ![16, 16, 64, 16]⟩
abbrev S16x16x96 : Shape := ⟨3, ![16, 16, 96]⟩
abbrev S16x96 : Shape := ⟨2, ![16, 96]⟩
abbrev S16x16x8 : Shape := ⟨3, ![16, 16, 8]⟩
abbrev S16x64x8 : Shape := ⟨3, ![16, 64, 8]⟩
abbrev S16x96x16 : Shape := ⟨3, ![16, 96, 16]⟩
abbrev S16x16 : Shape := ⟨2, ![16, 16]⟩
abbrev S16x1024x16 : Shape := ⟨3, ![16, 1024, 16]⟩
abbrev S16x1024x96 : Shape := ⟨3, ![16, 1024, 96]⟩
abbrev S16x16x64x96 : Shape := ⟨4, ![16, 16, 64, 96]⟩
abbrev S16x1x1x96 : Shape := ⟨4, ![16, 1, 1, 96]⟩
abbrev S16x16x64x8 : Shape := ⟨4, ![16, 16, 64, 8]⟩
abbrev S16x16x1x8 : Shape := ⟨4, ![16, 16, 1, 8]⟩
abbrev S16x1x64x8 : Shape := ⟨4, ![16, 1, 64, 8]⟩
abbrev S16x16x64x80 : Shape := ⟨4, ![16, 16, 64, 80]⟩
abbrev S16x1x1x16 : Shape := ⟨4, ![16, 1, 1, 16]⟩

abbrev nBuf : Space → Nat
  | .hbm => 15
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S256x16x96, .f32⟩
  | .hbm, ⟨2, _⟩ => ⟨S256x96, .f32⟩
  | .hbm, ⟨3, _⟩ => ⟨S256x64x8, .f32⟩
  | .hbm, ⟨4, _⟩ => ⟨S256x64x8, .f32⟩
  | .hbm, ⟨5, _⟩ => ⟨S256x96x16, .f32⟩
  | .hbm, ⟨6, _⟩ => ⟨S256x16, .f32⟩
  | .hbm, ⟨7, _⟩ => ⟨S256x16, .f32⟩
  | .hbm, ⟨8, _⟩ => ⟨S16x64x4x16x64x4, .f32⟩
  | .hbm, ⟨9, _⟩ => ⟨S16x16x64x64x4x4, .f32⟩
  | .hbm, ⟨10, _⟩ => ⟨S256x64x64x16, .f32⟩
  | .hbm, ⟨11, _⟩ => ⟨S256x64x64x16, .f32⟩
  | .hbm, ⟨12, _⟩ => ⟨S16x16x64x64x4x4, .f32⟩
  | .hbm, ⟨13, _⟩ => ⟨S16x64x4x16x64x4, .f32⟩
  | .hbm, ⟨14, _⟩ => ⟨S4096x4096, .f32⟩
  | .local _ .vmem, ⟨0, _⟩ => ⟨S16x16x64x16, .f32⟩
  | .local _ .vmem, ⟨1, _⟩ => ⟨S16x16x64x16, .f32⟩
  | .local _ .vmem, ⟨2, _⟩ => ⟨S16x16x96, .f32⟩
  | .local _ .vmem, ⟨3, _⟩ => ⟨S16x16x96, .f32⟩
  | .local _ .vmem, ⟨4, _⟩ => ⟨S16x96, .f32⟩
  | .local _ .vmem, ⟨5, _⟩ => ⟨S16x96, .f32⟩
  | .local _ .vmem, ⟨6, _⟩ => ⟨S16x16x8, .f32⟩
  | .local _ .vmem, ⟨7, _⟩ => ⟨S16x16x8, .f32⟩
  | .local _ .vmem, ⟨8, _⟩ => ⟨S16x64x8, .f32⟩
  | .local _ .vmem, ⟨9, _⟩ => ⟨S16x64x8, .f32⟩
  | .local _ .vmem, ⟨10, _⟩ => ⟨S16x96x16, .f32⟩
  | .local _ .vmem, ⟨11, _⟩ => ⟨S16x96x16, .f32⟩
  | .local _ .vmem, ⟨12, _⟩ => ⟨S16x16, .f32⟩
  | .local _ .vmem, ⟨13, _⟩ => ⟨S16x16, .f32⟩
  | .local _ .vmem, ⟨14, _⟩ => ⟨S16x16, .f32⟩
  | .local _ .vmem, ⟨15, _⟩ => ⟨S16x16, .f32⟩
  | .local _ .vmem, ⟨16, _⟩ => ⟨S16x16x64x16, .f32⟩
  | .local _ .vmem, ⟨17, _⟩ => ⟨S16x16x64x16, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x16x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x16x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x16x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x64x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x96x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x16x64x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S4096x4096_S16x64x4x16x64x4 : S4096x4096.ShapeCasts S16x64x4x16x64x4
  transposes_S16x64x4x16x64x4_S16x16x64x64x4x4_0_3_1_4_2_5 : S16x64x4x16x64x4.Transposes [0, 3, 1, 4, 2, 5] S16x16x64x64x4x4
  shapeCasts_S16x16x64x64x4x4_S256x64x64x16 : S16x16x64x64x4x4.ShapeCasts S256x64x64x16
  inb_S16x16x64x16_S16x16x64x16_0_0_0_0 : ∀ a, (![0, 0, 0, 0] : Fin 4 → Nat) a + S16x16x64x16.size a ≤ S16x16x64x16.size a
  h_S16x16x64x16 : 0 < S16x16x64x16.numel
  shapeCasts_S16x16x64x16_S16x16x64x16 : S16x16x64x16.ShapeCasts S16x16x64x16
  shapeCasts_S16x16x64x16_S16x1024x16 : S16x16x64x16.ShapeCasts S16x1024x16
  inb_S16x16x96_S16x16x96_0_0_0 : ∀ a, (![0, 0, 0] : Fin 3 → Nat) a + S16x16x96.size a ≤ S16x16x96.size a
  h_S16x16x96 : 0 < S16x16x96.numel
  bitsLt_bf16_f32 : FTy.bits .bf16 < FTy.bits .f32
  shapeCasts_S16x1024x96_S16x16x64x96 : S16x1024x96.ShapeCasts S16x16x64x96
  inb_S16x96_S16x96_0_0 : ∀ a, (![0, 0] : Fin 2 → Nat) a + S16x96.size a ≤ S16x96.size a
  h_S16x96 : 0 < S16x96.numel
  shapeCasts_S16x96_S16x1x1x96 : S16x96.ShapeCasts S16x1x1x96
  broadcasts_S16x1x1x96_S16x16x64x96 : S16x1x1x96.Broadcasts S16x16x64x96
  inb_S16x16x8_S16x16x8_0_0_0 : ∀ a, (![0, 0, 0] : Fin 3 → Nat) a + S16x16x8.size a ≤ S16x16x8.size a
  h_S16x16x8 : 0 < S16x16x8.numel
  inb_S16x64x8_S16x64x8_0_0_0 : ∀ a, (![0, 0, 0] : Fin 3 → Nat) a + S16x64x8.size a ≤ S16x64x8.size a
  h_S16x64x8 : 0 < S16x64x8.numel
  slices_S16x16x64x96_o0_0_0_0_S16x16x64x8 : S16x16x64x96.Slices ![0, 0, 0, 0] S16x16x64x8
  shapeCasts_S16x16x8_S16x16x1x8 : S16x16x8.ShapeCasts S16x16x1x8
  broadcasts_S16x16x1x8_S16x16x64x8 : S16x16x1x8.Broadcasts S16x16x64x8
  slices_S16x16x64x96_o0_0_0_8_S16x16x64x8 : S16x16x64x96.Slices ![0, 0, 0, 8] S16x16x64x8
  shapeCasts_S16x64x8_S16x1x64x8 : S16x64x8.ShapeCasts S16x1x64x8
  broadcasts_S16x1x64x8_S16x16x64x8 : S16x1x64x8.Broadcasts S16x16x64x8
  slices_S16x16x64x96_o0_0_0_16_S16x16x64x80 : S16x16x64x96.Slices ![0, 0, 0, 16] S16x16x64x80
  concatenates_S16x16x64x8_S16x16x64x8_S16x16x64x80_S16x16x64x96_d3 : Shape.Concatenates [S16x16x64x8, S16x16x64x8, S16x16x64x80] S16x16x64x96 3
  shapeCasts_S16x16x64x96_S16x1024x96 : S16x16x64x96.ShapeCasts S16x1024x96
  inb_S16x96x16_S16x96x16_0_0_0 : ∀ a, (![0, 0, 0] : Fin 3 → Nat) a + S16x96x16.size a ≤ S16x96x16.size a
  h_S16x96x16 : 0 < S16x96x16.numel
  shapeCasts_S16x1024x16_S16x16x64x16 : S16x1024x16.ShapeCasts S16x16x64x16
  inb_S16x16_S16x16_0_0 : ∀ a, (![0, 0] : Fin 2 → Nat) a + S16x16.size a ≤ S16x16.size a
  h_S16x16 : 0 < S16x16.numel
  shapeCasts_S16x16_S16x1x1x16 : S16x16.ShapeCasts S16x1x1x16
  broadcasts_S16x1x1x16_S16x16x64x16 : S16x1x1x16.Broadcasts S16x16x64x16
  shapeCasts_S256x64x64x16_S16x16x64x64x4x4 : S256x64x64x16.ShapeCasts S16x16x64x64x4x4
  transposes_S16x16x64x64x4x4_S16x64x4x16x64x4_0_2_4_1_3_5 : S16x16x64x64x4x4.Transposes [0, 2, 4, 1, 3, 5] S16x64x4x16x64x4
  shapeCasts_S16x64x4x16x64x4_S4096x4096 : S16x64x4x16x64x4.ShapeCasts S4096x4096
  dot_S16x1024x16_S16x16x96_S16x1024x96_2_1_1_2_0_0_wf : DotDims.WF S16x1024x16 S16x16x96 S16x1024x96 [2] [1] [1] [2] [0] [0]
  dot_S16x1024x96_S16x96x16_S16x1024x16_2_1_1_2_0_0_wf : DotDims.WF S16x1024x96 S16x96x16 S16x1024x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x64x16.size a ≤ S256x64x64x16.size a
  hwx0_0 : ∀ i : grid0.Coords, EltTy.bits .f32 = 32 ∨ (Rect.block (s := S256x64x64x16) S16x16x64x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16x96.size a ≤ S256x16x96.size a
  hwx0_1 : ∀ i : grid0.Coords, EltTy.bits .f32 = 32 ∨ (Rect.block (s := S256x16x96) S16x16x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x96.size a ≤ S256x96.size a
  hwx0_2 : ∀ i : grid0.Coords, EltTy.bits .f32 = 32 ∨ (Rect.block (s := S256x96) S16x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x16x8.size a ≤ S256x64x8.size a
  hwx0_3 : ∀ i : grid0.Coords, EltTy.bits .f32 = 32 ∨ (Rect.block (s := S256x64x8) S16x16x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x64x8.size a ≤ S256x64x8.size a
  hwx0_4 : ∀ i : grid0.Coords, EltTy.bits .f32 = 32 ∨ (Rect.block (s := S256x64x8) S16x64x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x96x16.size a ≤ S256x96x16.size a
  hwx0_5 : ∀ i : grid0.Coords, EltTy.bits .f32 = 32 ∨ (Rect.block (s := S256x96x16) S16x96x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S256x16.size a
  hwx0_6 : ∀ i : grid0.Coords, EltTy.bits .f32 = 32 ∨ (Rect.block (s := S256x16) S16x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S256x16.size a
  hwx0_7 : ∀ i : grid0.Coords, EltTy.bits .f32 = 32 ∨ (Rect.block (s := S256x16) S16x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x16x64x16.size a ≤ S256x64x64x16.size a
  hwx0_8 : ∀ i : grid0.Coords, EltTy.bits .f32 = 32 ∨ (Rect.block (s := S256x64x64x16) S16x16x64x16.size (cc0_transform_8 i) (hinb0_8 i)).WholeWords (EltTy.packing .f32)

variable [Facts₀]

def dot_S16x1024x16_S16x16x96_S16x1024x96_2_1_1_2_0_0 : DotDims S16x1024x16 S16x16x96 S16x1024x96 where
  lhsContracting := [2]
  rhsContracting := [1]
  lhsNonContracting := [1]
  rhsNonContracting := [2]
  lhsBatch := [0]
  rhsBatch := [0]
  wf := dot_S16x1024x16_S16x16x96_S16x1024x96_2_1_1_2_0_0_wf
def dot_S16x1024x96_S16x96x16_S16x1024x16_2_1_1_2_0_0 : DotDims S16x1024x96 S16x96x16 S16x1024x16 where
  lhsContracting := [2]
  rhsContracting := [1]
  lhsNonContracting := [1]
  rhsNonContracting := [2]
  lhsBatch := [0]
  rhsBatch := [0]
  wf := dot_S16x1024x96_S16x96x16_S16x1024x16_2_1_1_2_0_0_wf

abbrev win0_0 : Pipeline.Window sig grid0 :=
  Pipeline.Window.ofSpec (Memref.whole main_v2) S16x16x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x16x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x64x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x96x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x16.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S16x16x64x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S256x16x96 : Shape := ⟨3, ![256, 16, 96]⟩
abbrev S256x96 : Shape := ⟨2, ![256, 96]⟩
abbrev S256x64x8 : Shape := ⟨3, ![256, 64, 8]⟩
abbrev S256x96x16 : Shape := ⟨3, ![256, 96, 16]⟩
abbrev S256x16 : Shape := ⟨2, ![256, 16]⟩
abbrev S16x64x4x16x64x4 : Shape := ⟨6, ![16, 64, 4, 16, 64, 4]⟩
abbrev S16x16x64x64x4x4 : Shape := ⟨6, ![16, 16, 64, 64, 4, 4]⟩
abbrev S256x4096x16 : Shape := ⟨3, ![256, 4096, 16]⟩
abbrev S256x4096x96 : Shape := ⟨3, ![256, 4096, 96]⟩
abbrev S256x64x64x96 : Shape := ⟨4, ![256, 64, 64, 96]⟩
abbrev S256x1x1x96 : Shape := ⟨4, ![256, 1, 1, 96]⟩
abbrev S256x64x1x8 : Shape := ⟨4, ![256, 64, 1, 8]⟩
abbrev S_ : Shape := ⟨0, ![]⟩
abbrev S1 : Shape := ⟨1, ![1]⟩
abbrev S256x64x64x8 : Shape := ⟨4, ![256, 64, 64, 8]⟩
abbrev S256x1x64x8 : Shape := ⟨4, ![256, 1, 64, 8]⟩
abbrev S256x1x16 : Shape := ⟨3, ![256, 1, 16]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x16x96, .f32⟩
  | .hbm, ⟨2, _⟩ => ⟨S256x96, .f32⟩
  | .hbm, ⟨3, _⟩ => ⟨S256x64x8, .f32⟩
  | .hbm, ⟨4, _⟩ => ⟨S256x64x8, .f32⟩
  | .hbm, ⟨5, _⟩ => ⟨S256x96x16, .f32⟩
  | .hbm, ⟨6, _⟩ => ⟨S256x16, .f32⟩
  | .hbm, ⟨7, _⟩ => ⟨S256x16, .f32⟩
  | .hbm, ⟨8, _⟩ => ⟨S16x64x4x16x64x4, .f32⟩
  | .hbm, ⟨9, _⟩ => ⟨S16x16x64x64x4x4, .f32⟩
  | .hbm, ⟨10, _⟩ => ⟨S256x4096x16, .f32⟩
  | .hbm, ⟨11, _⟩ => ⟨S256x4096x96, .f32⟩
  | .hbm, ⟨12, _⟩ => ⟨S256x64x64x96, .f32⟩
  | .hbm, ⟨13, _⟩ => ⟨S256x1x1x96, .f32⟩
  | .hbm, ⟨14, _⟩ => ⟨S256x64x64x96, .f32⟩
  | .hbm, ⟨15, _⟩ => ⟨S256x64x64x96, .f32⟩
  | .hbm, ⟨16, _⟩ => ⟨S256x64x1x8, .f32⟩
  | .hbm, ⟨17, _⟩ => ⟨S_, .i32⟩
  | .hbm, ⟨18, _⟩ => ⟨S1, .i32⟩
  | .hbm, ⟨19, _⟩ => ⟨S256x64x64x8, .f32⟩
  | .hbm, ⟨20, _⟩ => ⟨S256x64x64x96, .f32⟩
  | .hbm, ⟨21, _⟩ => ⟨S256x1x64x8, .f32⟩
  | .hbm, ⟨22, _⟩ => ⟨S_, .i32⟩
  | .hbm, ⟨23, _⟩ => ⟨S1, .i32⟩
  | .hbm, ⟨24, _⟩ => ⟨S256x64x64x8, .f32⟩
  | .hbm, ⟨25, _⟩ => ⟨S256x64x64x96, .f32⟩
  | .hbm, ⟨26, _⟩ => ⟨S_, .f32⟩
  | .hbm, ⟨27, _⟩ => ⟨S256x64x64x96, .f32⟩
  | .hbm, ⟨28, _⟩ => ⟨S256x64x64x96, .i1⟩
  | .hbm, ⟨29, _⟩ => ⟨S_, .f32⟩
  | .hbm, ⟨30, _⟩ => ⟨S256x64x64x96, .f32⟩
  | .hbm, ⟨31, _⟩ => ⟨S256x64x64x96, .i1⟩
  | .hbm, ⟨32, _⟩ => ⟨S_, .f32⟩
  | .hbm, ⟨33, _⟩ => ⟨S_, .f32⟩
  | .hbm, ⟨34, _⟩ => ⟨S256x64x64x96, .f32⟩
  | .hbm, ⟨35, _⟩ => ⟨S256x64x64x96, .f32⟩
  | .hbm, ⟨36, _⟩ => ⟨S256x64x64x96, .f32⟩
  | .hbm, ⟨37, _⟩ => ⟨S_, .f32⟩
  | .hbm, ⟨38, _⟩ => ⟨S256x64x64x96, .f32⟩
  | .hbm, ⟨39, _⟩ => ⟨S256x64x64x96, .f32⟩
  | .hbm, ⟨40, _⟩ => ⟨S256x64x64x96, .f32⟩
  | .hbm, ⟨41, _⟩ => ⟨S256x4096x96, .f32⟩
  | .hbm, ⟨42, _⟩ => ⟨S256x4096x16, .f32⟩
  | .hbm, ⟨43, _⟩ => ⟨S256x1x16, .f32⟩
  | .hbm, ⟨44, _⟩ => ⟨S256x4096x16, .f32⟩
  | .hbm, ⟨45, _⟩ => ⟨S256x4096x16, .f32⟩
  | .hbm, ⟨46, _⟩ => ⟨S256x1x16, .f32⟩
  | .hbm, ⟨47, _⟩ => ⟨S256x4096x16, .f32⟩
  | .hbm, ⟨48, _⟩ => ⟨S256x4096x16, .f32⟩
  | .hbm, ⟨49, _⟩ => ⟨S256x4096x16, .f32⟩
  | .hbm, ⟨50, _⟩ => ⟨S16x16x64x64x4x4, .f32⟩
  | .hbm, ⟨51, _⟩ => ⟨S16x64x4x16x64x4, .f32⟩
  | .hbm, ⟨52, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_cst_1 : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_v4 : Ref sig .tc := ⟨.hbm, 35, rfl⟩
abbrev main_call0_v5 : Ref sig .tc := ⟨.hbm, 36, rfl⟩
abbrev main_call0_cst_2 : Ref sig .tc := ⟨.hbm, 37, rfl⟩
abbrev main_call0_v6 : Ref sig .tc := ⟨.hbm, 38, rfl⟩
abbrev main_call0_v7 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩

abbrev nD : Nat := 1
abbrev τ : Topo := Topo.v7x

variable {F : FTy → Type} [FloatOps F]

class Facts₀ : Prop where
  shapeCasts_S4096x4096_S16x64x4x16x64x4 : S4096x4096.ShapeCasts S16x64x4x16x64x4
  transposes_S16x64x4x16x64x4_S16x16x64x64x4x4_0_3_1_4_2_5 : S16x64x4x16x64x4.Transposes [0, 3, 1, 4, 2, 5] S16x16x64x64x4x4
  shapeCasts_S16x16x64x64x4x4_S256x4096x16 : S16x16x64x64x4x4.ShapeCasts S256x4096x16
  shapeCasts_S256x4096x96_S256x64x64x96 : S256x4096x96.ShapeCasts S256x64x64x96
  bcast_S256x96_S256x1x1x96_0_3 : S256x96.BroadcastsInDim S256x1x1x96 (![0, 3] : Fin 2 → Fin S256x1x1x96.rank)
  bcast_S256x1x1x96_S256x64x64x96_0_1_2_3 : S256x1x1x96.BroadcastsInDim S256x64x64x96 (![0, 1, 2, 3] : Fin 4 → Fin S256x64x64x96.rank)
  bcast_S256x64x8_S256x64x1x8_0_1_3 : S256x64x8.BroadcastsInDim S256x64x1x8 (![0, 1, 3] : Fin 3 → Fin S256x64x1x8.rank)
  bcast_S_S1 : S_.BroadcastsInDim S1 (![] : Fin 0 → Fin S1.rank)
  bcast_S256x64x1x8_S256x64x64x8_0_1_2_3 : S256x64x1x8.BroadcastsInDim S256x64x64x8 (![0, 1, 2, 3] : Fin 4 → Fin S256x64x64x8.rank)
  bcast_S256x64x8_S256x1x64x8_0_2_3 : S256x64x8.BroadcastsInDim S256x1x64x8 (![0, 2, 3] : Fin 3 → Fin S256x1x64x8.rank)
  bcast_S256x1x64x8_S256x64x64x8_0_1_2_3 : S256x1x64x8.BroadcastsInDim S256x64x64x8 (![0, 1, 2, 3] : Fin 4 → Fin S256x64x64x8.rank)
  bcast_S_S256x64x64x96 : S_.BroadcastsInDim S256x64x64x96 (![] : Fin 0 → Fin S256x64x64x96.rank)
  shapeCasts_S256x64x64x96_S256x4096x96 : S256x64x64x96.ShapeCasts S256x4096x96
  bcast_S256x16_S256x1x16_0_2 : S256x16.BroadcastsInDim S256x1x16 (![0, 2] : Fin 2 → Fin S256x1x16.rank)
  bcast_S256x1x16_S256x4096x16_0_1_2 : S256x1x16.BroadcastsInDim S256x4096x16 (![0, 1, 2] : Fin 3 → Fin S256x4096x16.rank)
  shapeCasts_S256x4096x16_S16x16x64x64x4x4 : S256x4096x16.ShapeCasts S16x16x64x64x4x4
  transposes_S16x16x64x64x4x4_S16x64x4x16x64x4_0_2_4_1_3_5 : S16x16x64x64x4x4.Transposes [0, 2, 4, 1, 3, 5] S16x64x4x16x64x4
  shapeCasts_S16x64x4x16x64x4_S4096x4096 : S16x64x4x16x64x4.ShapeCasts S4096x4096
  dot_S256x4096x16_S256x16x96_S256x4096x96_2_1_1_2_0_0_wf : DotDims.WF S256x4096x16 S256x16x96 S256x4096x96 [2] [1] [1] [2] [0] [0]
  scatter_S256x64x64x96_S1_S256x64x64x8_0123_n_3_0_wf : ScatterDims.WF S256x64x64x96 S1 S256x64x64x8 [0, 1, 2, 3] [] [3] 0
  dot_S256x4096x96_S256x96x16_S256x4096x16_2_1_1_2_0_0_wf : DotDims.WF S256x4096x96 S256x96x16 S256x4096x16 [2] [1] [1] [2] [0] [0]

variable [Facts₀]

def dot_S256x4096x16_S256x16x96_S256x4096x96_2_1_1_2_0_0 : DotDims S256x4096x16 S256x16x96 S256x4096x96 where
  lhsContracting := [2]
  rhsContracting := [1]
  lhsNonContracting := [1]
  rhsNonContracting := [2]
  lhsBatch := [0]
  rhsBatch := [0]
  wf := dot_S256x4096x16_S256x16x96_S256x4096x96_2_1_1_2_0_0_wf
def scatter_S256x64x64x96_S1_S256x64x64x8_0123_n_3_0 : ScatterDims S256x64x64x96 S1 S256x64x64x8 where
  updateWindowDims := [0, 1, 2, 3]
  insertedWindowDims := []
  scatterDimsToOperandDims := [3]
  indexVectorDim := 0
  wf := scatter_S256x64x64x96_S1_S256x64x64x8_0123_n_3_0_wf
def dot_S256x4096x96_S256x96x16_S256x4096x16_2_1_1_2_0_0 : DotDims S256x4096x96 S256x96x16 S256x4096x16 where
  lhsContracting := [2]
  rhsContracting := [1]
  lhsNonContracting := [1]
  rhsNonContracting := [2]
  lhsBatch := [0]
  rhsBatch := [0]
  wf := dot_S256x4096x96_S256x96x16_S256x4096x16_2_1_1_2_0_0_wf

class Facts : Prop extends Facts₀ where

variable [Facts]
-- ==== Proof.Spec.lean ====
/-
  The function both programs compute, over the extended reals.

  The 4096 × 4096 matrix is cut into 256 blocks of 64 × 64 tiles of 16 entries; `X[b, r, c, k]` is entry `k` of the tile
  at row `r`, column `c` of block `b`. Per block a two-layer network maps each tile to 16 new entries:

    pre[b, r, c, h] = (∑ k, X[b, r, c, k] · w1[b, k, h]) + b1[b, h]  (+ eh[b, r, h] for h < 8;  + ew[b, c, h − 8] for 8 ≤ h < 16)
    out[b, r, c, o] = ((∑ h, act(pre[b, r, c, h]) · w2[b, h, o]) + b2[b, o]) + X[b, r, c, o] · sc[b, o]

  with `act x = x` where `x > 0` and `eˣ − 1` elsewhere.
-/
import Idealize.ShloMosaic.PureOps.Ideal
import Idealize.ShloMosaic.Lib.ValueIdx

noncomputable section

namespace Cert.Tiles

open Idealize.ShloMosaic Idealize.ShloMosaic.ValueIdx

/-- The tiled matrix: block, tile row, tile column, entry. -/
abbrev SX : Shape := ⟨4, ![256, 64, 64, 16]⟩
/-- The same with the tile's two coordinates as one: block, tile, entry. -/
abbrev SX3 : Shape := ⟨3, ![256, 4096, 16]⟩
abbrev SW1 : Shape := ⟨3, ![256, 16, 96]⟩
abbrev SB1 : Shape := ⟨2, ![256, 96]⟩
abbrev SE : Shape := ⟨3, ![256, 64, 8]⟩
abbrev SW2 : Shape := ⟨3, ![256, 96, 16]⟩
abbrev SB2 : Shape := ⟨2, ![256, 16]⟩

/-- A hidden unit's position inside its band of eight. -/
def band (h : Fin 96) : Fin 8 := ⟨h.val % 8, Nat.mod_lt _ (by decide)⟩

/-- The tile at row `r`, column `c` of a block, counted row by row. -/
def tile (r c : Fin 64) : Fin 4096 := ⟨r.val * 64 + c.val, by have := r.isLt; have := c.isLt; omega⟩

/-- The activation: the identity on the positives, `eˣ − 1` elsewhere. -/
def act (x : EReal) : EReal :=
  Scalar.select (FloatOps.cmpf (F := Ideal) (φ := .f32) .ogt x (Ideal.ofBits .f32 0x00000000#32)) x (Ideal.exp x - 1)

/-- The first layer before the activation: the tile against `w1`, the bias, and on the first two bands of eight the
    row's and the column's positional rows. -/
def pre (X : FVec Ideal SX .f32) (w1 : FVec Ideal SW1 .f32) (b1 : FVec Ideal SB1 .f32) (eh ew : FVec Ideal SE .f32)
    (b : Fin 256) (r c : Fin 64) (h : Fin 96) : EReal :=
  if h.val < 8 then ((∑ k : Fin 16, X (ix4 b r c k) * w1 (ix3 b k h)) + b1 (ix2 b h)) + eh (ix3 b r (band h))
  else if h.val < 16 then ((∑ k : Fin 16, X (ix4 b r c k) * w1 (ix3 b k h)) + b1 (ix2 b h)) + ew (ix3 b c (band h))
  else (∑ k : Fin 16, X (ix4 b r c k) * w1 (ix3 b k h)) + b1 (ix2 b h)

/-- One entry of the result. -/
def outAt (X : FVec Ideal SX .f32) (w1 : FVec Ideal SW1 .f32) (b1 : FVec Ideal SB1 .f32) (eh ew : FVec Ideal SE .f32)
    (w2 : FVec Ideal SW2 .f32) (b2 sc : FVec Ideal SB2 .f32) (b : Fin 256) (r c : Fin 64) (o : Fin 16) : EReal :=
  ((∑ h : Fin 96, act (pre X w1 b1 eh ew b r c h) * w2 (ix3 b h o)) + b2 (ix2 b o)) + X (ix4 b r c o) * sc (ix2 b o)

/-- The result as an array over (block, tile row, tile column, entry). -/
def out (X : FVec Ideal SX .f32) (w1 : FVec Ideal SW1 .f32) (b1 : FVec Ideal SB1 .f32) (eh ew : FVec Ideal SE .f32)
    (w2 : FVec Ideal SW2 .f32) (b2 sc : FVec Ideal SB2 .f32) : FVec Ideal SX .f32 :=
  fun j => outAt X w1 b1 eh ew w2 b2 sc (j 0) (j 1) (j 2) (j 3)

theorem out_apply (X : FVec Ideal SX .f32) (w1 : FVec Ideal SW1 .f32) (b1 : FVec Ideal SB1 .f32) (eh ew : FVec Ideal SE .f32)
    (w2 : FVec Ideal SW2 .f32) (b2 sc : FVec Ideal SB2 .f32) (b : Fin 256) (r c : Fin 64) (o : Fin 16) :
    out X w1 b1 eh ew w2 b2 sc (ix4 b r c o) = outAt X w1 b1 eh ew w2 b2 sc b r c o := rfl

/-! ## The same on one block of the grid

A grid point works on 16 blocks × 16 tile rows: its operands are the sub-arrays `x0 … x7` of `X, w1, b1, eh, ew, w2, b2, sc`
at those blocks (and, for `X` and `eh`, those tile rows). -/

abbrev BX : Shape := ⟨4, ![16, 16, 64, 16]⟩
abbrev BW1 : Shape := ⟨3, ![16, 16, 96]⟩
abbrev BB1 : Shape := ⟨2, ![16, 96]⟩
abbrev BEH : Shape := ⟨3, ![16, 16, 8]⟩
abbrev BEW : Shape := ⟨3, ![16, 64, 8]⟩
abbrev BW2 : Shape := ⟨3, ![16, 96, 16]⟩
abbrev BB2 : Shape := ⟨2, ![16, 16]⟩

/-- The first layer before the activation, on a grid point's operands. -/
def preB (x0 : FVec Ideal BX .f32) (x1 : FVec Ideal BW1 .f32) (x2 : FVec Ideal BB1 .f32) (x3 : FVec Ideal BEH .f32)
    (x4 : FVec Ideal BEW .f32) (g r : Fin 16) (c : Fin 64) (h : Fin 96) : EReal :=
  if h.val < 8 then ((∑ k : Fin 16, x0 (ix4 g r c k) * x1 (ix3 g k h)) + x2 (ix2 g h)) + x3 (ix3 g r (band h))
  else if h.val < 16 then ((∑ k : Fin 16, x0 (ix4 g r c k) * x1 (ix3 g k h)) + x2 (ix2 g h)) + x4 (ix3 g c (band h))
  else (∑ k : Fin 16, x0 (ix4 g r c k) * x1 (ix3 g k h)) + x2 (ix2 g h)

/-- One entry of a grid point's result. -/
def outB (x0 : FVec Ideal BX .f32) (x1 : FVec Ideal BW1 .f32) (x2 : FVec Ideal BB1 .f32) (x3 : FVec Ideal BEH .f32)
    (x4 : FVec Ideal BEW .f32) (x5 : FVec Ideal BW2 .f32) (x6 x7 : FVec Ideal BB2 .f32) (g r : Fin 16) (c : Fin 64) (o : Fin 16) : EReal :=
  ((∑ h : Fin 96, act (preB x0 x1 x2 x3 x4 g r c h) * x5 (ix3 g h o)) + x6 (ix2 g o)) + x0 (ix4 g r c o) * x7 (ix2 g o)

end Cert.Tiles

end
-- ==== Proof.LibBatchedDot.lean ====
/-
  A batched matrix product over the extended reals, read at an index.

  For dimension numbers that batch axis 0 of both operands, contract the left operand's axis 2 with the right
  operand's axis 1, and keep the left axis 1 and the right axis 2, the contraction's sum at the output index
  (b, i, n) is  ∑ k, L[b, i, k] · R[b, k, n]  — the sum re-indexed from the contraction shape's one-axis index
  set to the axis's coordinate range.
-/
import Idealize.ShloMosaic.PureOps.Ideal.Laws
import Idealize.ShloMosaic.Lib.ValueIdx

namespace Cert.LibBatchedDot

open Idealize.ShloMosaic Idealize.ShloMosaic.ValueIdx

variable {B M K N : Nat}

section Axes
variable (d : DotDims (⟨3, ![B, M, K]⟩ : Shape) (⟨3, ![B, K, N]⟩ : Shape) (⟨3, ![B, M, N]⟩ : Shape))

/-- Two readings of an output coordinate at positions that are equal numbers agree. -/
private theorem out_key (j : (⟨3, ![B, M, N]⟩ : Shape).Idx) (p q : Nat) (hp : p < (⟨3, ![B, M, N]⟩ : Shape).rank)
    (hq : q < (⟨3, ![B, M, N]⟩ : Shape).rank) (h : p = q) : (j ⟨p, hp⟩).val = (j ⟨q, hq⟩).val := by subst h; rfl

/-- The left index's batch coordinate is the output's. -/
theorem lhs_batch (hb : d.lhsBatch = [0]) (j : (⟨3, ![B, M, N]⟩ : Shape).Idx) (k : d.contr.Idx) :
    (d.lhsIdx j k 0).val = (j 0).val := by
  have hmem : (0 : Fin (⟨3, ![B, M, K]⟩ : Shape).rank) ∈ d.lhsBatch := by rw [hb]; exact List.mem_singleton.mpr rfl
  unfold DotDims.lhsIdx
  rw [dif_pos hmem]
  simp only [Fin.val_cast]
  exact out_key j _ _ _ _ (by simp [hb])

/-- The left index's row coordinate is the output's row. -/
theorem lhs_row (hb : d.lhsBatch = [0]) (hn : d.lhsNonContracting = [1]) (j : (⟨3, ![B, M, N]⟩ : Shape).Idx) (k : d.contr.Idx) :
    (d.lhsIdx j k 1).val = (j 1).val := by
  have hnb : (1 : Fin (⟨3, ![B, M, K]⟩ : Shape).rank) ∉ d.lhsBatch := by
    rw [hb, List.mem_singleton]; exact fun h => absurd (Fin.val_eq_of_eq h) (show (1 : ℕ) ≠ 0 by omega)
  have hmem : (1 : Fin (⟨3, ![B, M, K]⟩ : Shape).rank) ∈ d.lhsNonContracting := by rw [hn]; exact List.mem_singleton.mpr rfl
  unfold DotDims.lhsIdx
  rw [dif_neg hnb, dif_pos hmem]
  simp only [Fin.val_cast]
  exact out_key j _ _ _ _ (by simp [hb, hn])

/-- The left index's contracted coordinate is the contraction position's. -/
theorem lhs_contr (hc : d.lhsContracting = [2]) (j : (⟨3, ![B, M, N]⟩ : Shape).Idx) (k : d.contr.Idx) :
    (d.lhsIdx j k 2).val = (k ⟨0, by rw [d.rank_contr, hc]; exact Nat.one_pos⟩).val :=
  d.lhsIdx_val_of_single hc j k

/-- The right index's batch coordinate is the output's. -/
theorem rhs_batch (hlb : d.lhsBatch = [0]) (hb : d.rhsBatch = [0]) (j : (⟨3, ![B, M, N]⟩ : Shape).Idx) (k : d.contr.Idx) :
    (d.rhsIdx j k 0).val = (j 0).val := by
  have hmem : (0 : Fin (⟨3, ![B, K, N]⟩ : Shape).rank) ∈ d.rhsBatch := by rw [hb]; exact List.mem_singleton.mpr rfl
  unfold DotDims.rhsIdx
  rw [dif_pos hmem]
  simp only [Fin.val_cast]
  exact out_key j _ _ _ _ (by simp [hb])

/-- The right index's column coordinate is the output's column. -/
theorem rhs_col (hlb : d.lhsBatch = [0]) (hln : d.lhsNonContracting = [1]) (hb : d.rhsBatch = [0]) (hn : d.rhsNonContracting = [2])
    (j : (⟨3, ![B, M, N]⟩ : Shape).Idx) (k : d.contr.Idx) :
    (d.rhsIdx j k 2).val = (j 2).val := by
  have hnb : (2 : Fin (⟨3, ![B, K, N]⟩ : Shape).rank) ∉ d.rhsBatch := by
    rw [hb, List.mem_singleton]; exact fun h => absurd (Fin.val_eq_of_eq h) (show (2 : ℕ) ≠ 0 by omega)
  have hmem : (2 : Fin (⟨3, ![B, K, N]⟩ : Shape).rank) ∈ d.rhsNonContracting := by rw [hn]; exact List.mem_singleton.mpr rfl
  unfold DotDims.rhsIdx
  rw [dif_neg hnb, dif_pos hmem]
  simp only [Fin.val_cast]
  exact out_key j _ _ _ _ (by simp [hlb, hln, hn])

/-- The right index's contracted coordinate is the contraction position's. -/
theorem rhs_contr (hc : d.rhsContracting = [1]) (j : (⟨3, ![B, M, N]⟩ : Shape).Idx) (k : d.contr.Idx) :
    (d.rhsIdx j k 1).val = (k ⟨0, by rw [d.rank_contr, ← d.length_contracting, hc]; exact Nat.one_pos⟩).val :=
  d.rhsIdx_val_of_single hc j k

end Axes

/-- The contraction's sum at (b, i, n) is the sum over the contracted axis's coordinates. -/
theorem sum_eq (d : DotDims (⟨3, ![B, M, K]⟩ : Shape) (⟨3, ![B, K, N]⟩ : Shape) (⟨3, ![B, M, N]⟩ : Shape))
    (hlc : d.lhsContracting = [2]) (hrc : d.rhsContracting = [1]) (hln : d.lhsNonContracting = [1])
    (hrn : d.rhsNonContracting = [2]) (hlb : d.lhsBatch = [0]) (hrb : d.rhsBatch = [0])
    (l : (⟨3, ![B, M, K]⟩ : Shape).Idx → EReal) (r : (⟨3, ![B, K, N]⟩ : Shape).Idx → EReal)
    (b : Fin B) (i : Fin M) (n : Fin N) :
    ∑ k : d.contr.Idx, l (d.lhsIdx (ix3 b i n) k) * r (d.rhsIdx (ix3 b i n) k)
      = ∑ k : Fin K, l (ix3 b i k) * r (ix3 b k n) := by
  have hr : d.contr.rank = 1 := by rw [d.rank_contr, hlc]; rfl
  have hs : d.contr.size ⟨0, by omega⟩ = K := by
    have h := d.size_contr 0 (by rw [hlc]; exact Nat.one_pos)
    simp only [hlc] at h
    exact h
  rw [← Equiv.sum_comp (contrEquiv1 d K hr hs).symm]
  refine Finset.sum_congr rfl fun k _ => ?_
  have hk := contrEquiv1_symm_val d K hr hs k
  have el : d.lhsIdx (ix3 b i n) ((contrEquiv1 d K hr hs).symm k) = ix3 b i k := by
    funext a
    apply Fin.ext
    match a with
    | ⟨0, _⟩ => exact lhs_batch d hlb _ _
    | ⟨1, _⟩ => exact lhs_row d hlb hln _ _
    | ⟨2, _⟩ => exact (lhs_contr d hlc _ _).trans hk
  have er : d.rhsIdx (ix3 b i n) ((contrEquiv1 d K hr hs).symm k) = ix3 b k n := by
    funext a
    apply Fin.ext
    match a with
    | ⟨0, _⟩ => exact rhs_batch d hlb hrb _ _
    | ⟨1, _⟩ => exact (rhs_contr d hrc _ _).trans hk
    | ⟨2, _⟩ => exact rhs_col d hlb hln hrb hrn _ _
  rw [el, er]

end Cert.LibBatchedDot
-- ==== Proof.KLayout.lean ====
/-
  Layout steps of a grid point's body read at an index: the tile axes merged and split again around the two products,
  the per-block rows spread over the tiles, and the three slices of the hidden axis put back together.
-/
import Idealize.ShloMosaic.Lib.Pipeline.Value
import Idealize.ShloMosaic.Lib.ValueIdx

namespace Cert.KLayout

open Idealize.ShloMosaic Idealize.ShloMosaic.ValueIdx

variable {α : Type}

/-- A tile's position among a grid point's 16 × 64 tiles, counted row by row. -/
def tileB (r : Fin 16) (c : Fin 64) : Fin 1024 := ⟨r.val * 64 + c.val, by have := r.isLt; have := c.isLt; omega⟩

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- Splitting the merged tile axis: entry (g, r, c, u) of the split array is entry (g, 64 r + c, u) of the merged one. -/
theorem split_apply {H : Nat} (v : (⟨3, ![16, 1024, H]⟩ : Shape).Idx → α)
    (h : (⟨3, ![16, 1024, H]⟩ : Shape).ShapeCasts ⟨4, ![16, 16, 64, H]⟩) (g r : Fin 16) (c : Fin 64) (u : Fin H) :
    shapeCast ⟨4, ![16, 16, 64, H]⟩ v h (ix4 g r c u) = v (ix3 g (tileB r c) u) := by
  refine shapeCast_apply v h _ _ ?_
  rw [Shape.rowMajor_val_three, Shape.rowMajor_val_four]
  show (g.val * 1024 + (r.val * 64 + c.val)) * H + u.val = ((g.val * 16 + r.val) * 64 + c.val) * H + u.val
  congr 2
  omega

/-- Merging the tile axes: entry (g, 64 r + c, u) of the merged array is entry (g, r, c, u) of the split one. -/
theorem merge_apply {H : Nat} (v : (⟨4, ![16, 16, 64, H]⟩ : Shape).Idx → α)
    (h : (⟨4, ![16, 16, 64, H]⟩ : Shape).ShapeCasts ⟨3, ![16, 1024, H]⟩) (g r : Fin 16) (c : Fin 64) (u : Fin H) :
    shapeCast ⟨3, ![16, 1024, H]⟩ v h (ix3 g (tileB r c) u) = v (ix4 g r c u) := by
  refine shapeCast_apply v h _ _ ?_
  rw [Shape.rowMajor_val_three, Shape.rowMajor_val_four]
  show ((g.val * 16 + r.val) * 64 + c.val) * H + u.val = (g.val * 1024 + (r.val * 64 + c.val)) * H + u.val
  congr 2
  omega

/-- A per-block row spread over every tile: entry (g, r, c, u) is the row's entry (g, u). -/
theorem row_apply {H : Nat} (v : (⟨2, ![16, H]⟩ : Shape).Idx → α)
    (h1 : (⟨2, ![16, H]⟩ : Shape).ShapeCasts ⟨4, ![16, 1, 1, H]⟩)
    (h2 : (⟨4, ![16, 1, 1, H]⟩ : Shape).Broadcasts ⟨4, ![16, 16, 64, H]⟩) (hH : H ≠ 1) (g r : Fin 16) (c : Fin 64) (u : Fin H) :
    broadcastTo ⟨4, ![16, 16, 64, H]⟩ (shapeCast ⟨4, ![16, 1, 1, H]⟩ v h1) h2 (ix4 g r c u) = v (ix2 g u) := by
  refine (broadcastTo_apply _ h2 _ (ix4 g 0 0 u) ?_).trans ?_
  · intro a
    match a with
    | ⟨0, _⟩ => rfl
    | ⟨1, _⟩ => rfl
    | ⟨2, _⟩ => rfl
    | ⟨3, _⟩ => show u.val = if H = 1 then 0 else u.val; rw [if_neg hH]
  · refine shapeCast_apply v h1 _ _ ?_
    rw [Shape.rowMajor_val_two, Shape.rowMajor_val_four]
    show g.val * H + u.val = ((g.val * 1 + 0) * 1 + 0) * H + u.val
    simp

/-- The tile row's positional row spread over the tile columns: entry (g, r, c, e) is the row's entry (g, r, e). -/
theorem rowpos_apply (v : (⟨3, ![16, 16, 8]⟩ : Shape).Idx → α)
    (h1 : (⟨3, ![16, 16, 8]⟩ : Shape).ShapeCasts ⟨4, ![16, 16, 1, 8]⟩)
    (h2 : (⟨4, ![16, 16, 1, 8]⟩ : Shape).Broadcasts ⟨4, ![16, 16, 64, 8]⟩) (g r : Fin 16) (c : Fin 64) (e : Fin 8) :
    broadcastTo ⟨4, ![16, 16, 64, 8]⟩ (shapeCast ⟨4, ![16, 16, 1, 8]⟩ v h1) h2 (ix4 g r c e) = v (ix3 g r e) := by
  refine (broadcastTo_apply _ h2 _ (ix4 g r 0 e) ?_).trans ?_
  · intro a
    match a with
    | ⟨0, _⟩ => rfl
    | ⟨1, _⟩ => rfl
    | ⟨2, _⟩ => rfl
    | ⟨3, _⟩ => rfl
  · refine shapeCast_apply v h1 _ _ ?_
    rw [Shape.rowMajor_val_three, Shape.rowMajor_val_four]
    show (g.val * 16 + r.val) * 8 + e.val = ((g.val * 16 + r.val) * 1 + 0) * 8 + e.val
    simp

/-- The tile column's positional row spread over the tile rows: entry (g, r, c, e) is the row's entry (g, c, e). -/
theorem colpos_apply (v : (⟨3, ![16, 64, 8]⟩ : Shape).Idx → α)
    (h1 : (⟨3, ![16, 64, 8]⟩ : Shape).ShapeCasts ⟨4, ![16, 1, 64, 8]⟩)
    (h2 : (⟨4, ![16, 1, 64, 8]⟩ : Shape).Broadcasts ⟨4, ![16, 16, 64, 8]⟩) (g r : Fin 16) (c : Fin 64) (e : Fin 8) :
    broadcastTo ⟨4, ![16, 16, 64, 8]⟩ (shapeCast ⟨4, ![16, 1, 64, 8]⟩ v h1) h2 (ix4 g r c e) = v (ix3 g c e) := by
  refine (broadcastTo_apply _ h2 _ (ix4 g 0 c e) ?_).trans ?_
  · intro a
    match a with
    | ⟨0, _⟩ => rfl
    | ⟨1, _⟩ => rfl
    | ⟨2, _⟩ => rfl
    | ⟨3, _⟩ => rfl
  · refine shapeCast_apply v h1 _ _ ?_
    rw [Shape.rowMajor_val_three, Shape.rowMajor_val_four]
    show (g.val * 64 + c.val) * 8 + e.val = ((g.val * 1 + 0) * 64 + c.val) * 8 + e.val
    simp

/-- A slice of the hidden axis starting at `o`: entry (g, r, c, e) is the array's entry (g, r, c, o + e). -/
theorem hslice_apply {W : Nat} (o : Nat) (x : (⟨4, ![16, 16, 64, 96]⟩ : Shape).Idx → α)
    (h : (⟨4, ![16, 16, 64, 96]⟩ : Shape).Slices ![0, 0, 0, o] ⟨4, ![16, 16, 64, W]⟩) (g r : Fin 16) (c : Fin 64) (e : Fin W)
    (he : o + e.val < 96) :
    extractStridedSlice ⟨4, ![16, 16, 64, W]⟩ ![0, 0, 0, o] x h (ix4 g r c e) = x (ix4 g r c ⟨o + e.val, he⟩) := by
  refine extractStridedSlice_apply _ x h _ _ ?_
  intro a
  match a with
  | ⟨0, _⟩ => show g.val = 0 + g.val; omega
  | ⟨1, _⟩ => show r.val = 0 + r.val; omega
  | ⟨2, _⟩ => show c.val = 0 + c.val; omega
  | ⟨3, _⟩ => rfl

/-- Three pieces of widths 8, 8 and 80 joined along the hidden axis, read at unit `h`. -/
theorem bands_apply (p0 p1 : (⟨4, ![16, 16, 64, 8]⟩ : Shape).Idx → α) (p2 : (⟨4, ![16, 16, 64, 80]⟩ : Shape).Idx → α)
    (hc : Shape.Concatenates [(⟨4, ![16, 16, 64, 8]⟩ : Shape), ⟨4, ![16, 16, 64, 8]⟩, ⟨4, ![16, 16, 64, 80]⟩] ⟨4, ![16, 16, 64, 96]⟩ 3)
    (g r : Fin 16) (c : Fin 64) (h : Fin 96) :
    concatenate ⟨4, ![16, 16, 64, 96]⟩ 3 [⟨⟨4, ![16, 16, 64, 8]⟩, p0⟩, ⟨⟨4, ![16, 16, 64, 8]⟩, p1⟩, ⟨⟨4, ![16, 16, 64, 80]⟩, p2⟩] hc (ix4 g r c h)
      = if h0 : h.val < 8 then p0 (ix4 g r c ⟨h.val, h0⟩)
        else if h1 : h.val < 16 then p1 (ix4 g r c ⟨h.val - 8, by omega⟩)
        else p2 (ix4 g r c ⟨h.val - 16, by have := h.isLt; omega⟩) := by
  have hoff : ∀ (W : Nat) (i : (⟨4, ![16, 16, 64, W]⟩ : Shape).Idx) (e : Fin W), i = ix4 g r c e →
      ∀ b : Fin 4, b ≠ 3 → (i b).val = (ix4 g r c h b).val := by
    intro W i e hi b hb
    subst hi
    match b with
    | ⟨0, _⟩ => rfl
    | ⟨1, _⟩ => rfl
    | ⟨2, _⟩ => rfl
    | ⟨3, _⟩ => exact absurd rfl hb
  by_cases h0 : h.val < 8
  · rw [dif_pos h0]
    exact concatenate_apply_piece (t := ⟨4, ![16, 16, 64, 96]⟩) 3 [⟨⟨4, ![16, 16, 64, 8]⟩, p0⟩, ⟨⟨4, ![16, 16, 64, 8]⟩, p1⟩, ⟨⟨4, ![16, 16, 64, 80]⟩, p2⟩] hc (ix4 g r c h) 0 (by show (0 : ℕ) < 3; omega) ⟨4, ![16, 16, 64, 8]⟩ p0 rfl rfl 0 rfl (ix4 g r c ⟨h.val, h0⟩)
      (hoff 8 _ _ rfl) (by show 0 + h.val = h.val; omega)
  · rw [dif_neg h0]
    by_cases h1 : h.val < 16
    · rw [dif_pos h1]
      exact concatenate_apply_piece (t := ⟨4, ![16, 16, 64, 96]⟩) 3 [⟨⟨4, ![16, 16, 64, 8]⟩, p0⟩, ⟨⟨4, ![16, 16, 64, 8]⟩, p1⟩, ⟨⟨4, ![16, 16, 64, 80]⟩, p2⟩] hc (ix4 g r c h) 1 (by show (1 : ℕ) < 3; omega) ⟨4, ![16, 16, 64, 8]⟩ p1 rfl rfl 8 rfl (ix4 g r c ⟨h.val - 8, by omega⟩)
        (hoff 8 _ _ rfl) (by show 8 + (h.val - 8) = h.val; omega)
    · rw [dif_neg h1]
      exact concatenate_apply_piece (t := ⟨4, ![16, 16, 64, 96]⟩) 3 [⟨⟨4, ![16, 16, 64, 8]⟩, p0⟩, ⟨⟨4, ![16, 16, 64, 8]⟩, p1⟩, ⟨⟨4, ![16, 16, 64, 80]⟩, p2⟩] hc (ix4 g r c h) 2 (by show (2 : ℕ) < 3; omega) ⟨4, ![16, 16, 64, 80]⟩ p2 rfl rfl 16 rfl (ix4 g r c ⟨h.val - 16, by have := h.isLt; omega⟩)
        (hoff 80 _ _ rfl) (by show 16 + (h.val - 16) = h.val; omega)

/-- The slice read with the array's coordinate named. -/
theorem hslice_at {W : Nat} (o : Nat) (x : (⟨4, ![16, 16, 64, 96]⟩ : Shape).Idx → α)
    (h : (⟨4, ![16, 16, 64, 96]⟩ : Shape).Slices ![0, 0, 0, o] ⟨4, ![16, 16, 64, W]⟩) (g r : Fin 16) (c : Fin 64) (e : Fin W)
    (k : Fin 96) (hk : k.val = o + e.val) :
    extractStridedSlice ⟨4, ![16, 16, 64, W]⟩ ![0, 0, 0, o] x h (ix4 g r c e) = x (ix4 g r c k) := by
  rw [hslice_apply o x h g r c e (by rw [← hk]; exact k.isLt)]
  exact congrArg (fun q => x (ix4 g r c q)) (Fin.ext hk.symm)

section Bands
variable (p0 p1 : (⟨4, ![16, 16, 64, 8]⟩ : Shape).Idx → α) (p2 : (⟨4, ![16, 16, 64, 80]⟩ : Shape).Idx → α)
  (hc : Shape.Concatenates [(⟨4, ![16, 16, 64, 8]⟩ : Shape), ⟨4, ![16, 16, 64, 8]⟩, ⟨4, ![16, 16, 64, 80]⟩] ⟨4, ![16, 16, 64, 96]⟩ 3)
  (g r : Fin 16) (c : Fin 64) (h : Fin 96)

/-- Units 0–7 read the first piece. -/
theorem bands_lo (h0 : h.val < 8) (e : Fin 8) (he : e.val = h.val) :
    concatenate ⟨4, ![16, 16, 64, 96]⟩ 3 [⟨⟨4, ![16, 16, 64, 8]⟩, p0⟩, ⟨⟨4, ![16, 16, 64, 8]⟩, p1⟩, ⟨⟨4, ![16, 16, 64, 80]⟩, p2⟩] hc (ix4 g r c h)
      = p0 (ix4 g r c e) := by
  rw [bands_apply, dif_pos h0]
  exact congrArg (fun q => p0 (ix4 g r c q)) (Fin.ext he.symm)

/-- Units 8–15 read the second piece. -/
theorem bands_mid (h0 : ¬ h.val < 8) (h1 : h.val < 16) (e : Fin 8) (he : e.val + 8 = h.val) :
    concatenate ⟨4, ![16, 16, 64, 96]⟩ 3 [⟨⟨4, ![16, 16, 64, 8]⟩, p0⟩, ⟨⟨4, ![16, 16, 64, 8]⟩, p1⟩, ⟨⟨4, ![16, 16, 64, 80]⟩, p2⟩] hc (ix4 g r c h)
      = p1 (ix4 g r c e) := by
  rw [bands_apply, dif_neg h0, dif_pos h1]
  exact congrArg (fun q => p1 (ix4 g r c q)) (Fin.ext (by show h.val - 8 = e.val; omega))

/-- Units 16–95 read the third piece. -/
theorem bands_hi (h0 : ¬ h.val < 8) (h1 : ¬ h.val < 16) (e : Fin 80) (he : e.val + 16 = h.val) :
    concatenate ⟨4, ![16, 16, 64, 96]⟩ 3 [⟨⟨4, ![16, 16, 64, 8]⟩, p0⟩, ⟨⟨4, ![16, 16, 64, 8]⟩, p1⟩, ⟨⟨4, ![16, 16, 64, 80]⟩, p2⟩] hc (ix4 g r c h)
      = p2 (ix4 g r c e) := by
  rw [bands_apply, dif_neg h0, dif_neg h1]
  exact congrArg (fun q => p2 (ix4 g r c q)) (Fin.ext (by show h.val - 16 = e.val; omega))

end Bands

end Cert.KLayout
-- ==== Proof.KPayload.lean ====
/-
  What a grid point's body stores, entry by entry: the two-layer network on the point's operands.
-/
import proofs.«156347_j26594437497233_1_alg».proof.Proof.Gen.KernelIdeal.Frame
import proofs.«156347_j26594437497233_1_alg».proof.Proof.Spec
import proofs.«156347_j26594437497233_1_alg».proof.Proof.LibBatchedDot
import proofs.«156347_j26594437497233_1_alg».proof.Proof.KLayout
import Idealize.ShloMosaic.Lib.Pipeline.Value
import Idealize.ShloMosaic.Lib.IdealHost

noncomputable section

namespace Cert.KernelIdeal.Pay

open Idealize.ShloMosaic Idealize.ShloMosaic.ValueIdx Cert.KernelIdeal Cert.KernelIdeal.Gen Cert.KLayout

/-- The buffer after the body's one whole-buffer store is the stored value, over the loaded operands. -/
theorem out0_8_eq (x0 : Vec Ideal S16x16x64x16 .f32) (x1 : Vec Ideal S16x16x96 .f32) (x2 : Vec Ideal S16x96 .f32)
    (x3 : Vec Ideal S16x16x8 .f32) (x4 : Vec Ideal S16x64x8 .f32) (x5 : Vec Ideal S16x96x16 .f32) (x6 x7 : Vec Ideal S16x16 .f32) :
    out0_8 x0 x1 x2 x3 x4 x5 x6 x7 = k0_pay1 (k0_pay2 x0) (k0_pay3 x0 x1 x2 x3 x4 x5) x6 x7 := by
  unfold out0_8
  rw [View.canon_unit_zero hz4]
  simp only [View.ld_unit_zero (S := S16x16x64x16) hz4, View.ld_unit_zero (S := S16x16x96) hz3,
    View.ld_unit_zero (S := S16x96) hz2, View.ld_unit_zero (S := S16x16x8) hz3, View.ld_unit_zero (S := S16x64x8) hz3,
    View.ld_unit_zero (S := S16x96x16) hz3, View.ld_unit_zero (S := S16x16) hz2]

/-- The tile operand re-cast to its own shape is itself. -/
theorem pay2_eq (v0 : Vec Ideal S16x16x64x16 .f32) : k0_pay2 v0 = v0 := by
  unfold k0_pay2
  exact shapeCast_self _ _

/-- The activation as the body spells it (select on `x > 0` between `x` and `eˣ − 1`), at an index. -/
theorem act_apply {s : Shape} (x : FVec Ideal s .f32) (j : s.Idx) :
    select (cmpf .ogt x (broadcast s (Scalar.ofBits .f32 0x00000000#32))) x
      (subf (exp x) (broadcast s (Scalar.ofBits .f32 0x3F800000#32))) j = Cert.Tiles.act (x j) := by
  show Scalar.select (FloatOps.cmpf .ogt (x j) (Ideal.ofBits .f32 0x00000000#32)) (x j)
      (Ideal.exp (x j) - Ideal.ofBits .f32 0x3F800000#32) = _
  rw [Ideal.ofBits_one_f32]
  rfl

/-- The first layer's linear part at (g, r, c, h): the tile's 16 entries against column h of the block's `w1`, plus the bias. -/
theorem lin_apply (v0 : FVec Ideal S16x16x64x16 .f32) (v3 : FVec Ideal S16x16x96 .f32) (v8 : FVec Ideal S16x96 .f32)
    (h1 : S16x16x64x16.ShapeCasts S16x1024x16) (hb : FTy.bits .bf16 < FTy.bits .f32)
    (h2 : S16x1024x96.ShapeCasts S16x16x64x96) (h3 : S16x96.ShapeCasts S16x1x1x96)
    (h4 : S16x1x1x96.Broadcasts S16x16x64x96) (g r : Fin 16) (c : Fin 64) (h : Fin 96) :
    addf (shapeCast S16x16x64x96
          (matmul dot_S16x1024x16_S16x16x96_S16x1024x96_2_1_1_2_0_0 none (truncf .bf16 (shapeCast S16x1024x16 v0 h1) hb)
            (truncf .bf16 v3 hb) (constant S16x1024x96 .f32 0x00000000#32)) h2)
        (broadcastTo S16x16x64x96 (shapeCast S16x1x1x96 v8 h3) h4) (ix4 g r c h)
      = (∑ k : Fin 16, v0 (ix4 g r c k) * v3 (ix3 g k h)) + v8 (ix2 g h) := by
  rw [addf_apply, row_apply v8 h3 h4 (by decide), split_apply (H := 96)]
  congr 1
  refine (Ideal.matmul_constant_zero_apply _ none _ _ _).trans ?_
  refine (Cert.LibBatchedDot.sum_eq dot_S16x1024x16_S16x16x96_S16x1024x96_2_1_1_2_0_0 rfl rfl rfl rfl rfl rfl _ _ g (tileB r c) h).trans ?_
  refine Finset.sum_congr rfl fun k _ => ?_
  rw [truncf_apply, truncf_apply, merge_apply (H := 16)]

/-- The hidden units before the activation at (g, r, c, h): the linear part, plus the tile row's positional row on
    units 0–7 and the tile column's on units 8–15. -/
theorem hid_apply (v0 : FVec Ideal S16x16x64x16 .f32) (v3 : FVec Ideal S16x16x96 .f32) (v8 : FVec Ideal S16x96 .f32)
    (v12 : FVec Ideal S16x16x8 .f32) (v13 : FVec Ideal S16x64x8 .f32)
    (h1 : S16x16x64x16.ShapeCasts S16x1024x16) (hb : FTy.bits .bf16 < FTy.bits .f32)
    (h2 : S16x1024x96.ShapeCasts S16x16x64x96) (h3 : S16x96.ShapeCasts S16x1x1x96)
    (h4 : S16x1x1x96.Broadcasts S16x16x64x96)
    (s0 : S16x16x64x96.Slices ![0, 0, 0, 0] S16x16x64x8) (s8 : S16x16x64x96.Slices ![0, 0, 0, 8] S16x16x64x8)
    (s16 : S16x16x64x96.Slices ![0, 0, 0, 16] S16x16x64x80)
    (c1 : S16x16x8.ShapeCasts S16x16x1x8) (b1 : S16x16x1x8.Broadcasts S16x16x64x8)
    (c2 : S16x64x8.ShapeCasts S16x1x64x8) (b2 : S16x1x64x8.Broadcasts S16x16x64x8)
    (hc : Shape.Concatenates [S16x16x64x8, S16x16x64x8, S16x16x64x80] S16x16x64x96 3)
    (g r : Fin 16) (c : Fin 64) (h : Fin 96) :
    concatenate S16x16x64x96 3
        [⟨S16x16x64x8, addf (extractStridedSlice S16x16x64x8 ![0, 0, 0, 0]
            (addf (shapeCast S16x16x64x96
              (matmul dot_S16x1024x16_S16x16x96_S16x1024x96_2_1_1_2_0_0 none (truncf .bf16 (shapeCast S16x1024x16 v0 h1) hb)
                (truncf .bf16 v3 hb) (constant S16x1024x96 .f32 0x00000000#32)) h2)
              (broadcastTo S16x16x64x96 (shapeCast S16x1x1x96 v8 h3) h4)) s0)
            (broadcastTo S16x16x64x8 (shapeCast S16x16x1x8 v12 c1) b1)⟩,
         ⟨S16x16x64x8, addf (extractStridedSlice S16x16x64x8 ![0, 0, 0, 8]
            (addf (shapeCast S16x16x64x96
              (matmul dot_S16x1024x16_S16x16x96_S16x1024x96_2_1_1_2_0_0 none (truncf .bf16 (shapeCast S16x1024x16 v0 h1) hb)
                (truncf .bf16 v3 hb) (constant S16x1024x96 .f32 0x00000000#32)) h2)
              (broadcastTo S16x16x64x96 (shapeCast S16x1x1x96 v8 h3) h4)) s8)
            (broadcastTo S16x16x64x8 (shapeCast S16x1x64x8 v13 c2) b2)⟩,
         ⟨S16x16x64x80, extractStridedSlice S16x16x64x80 ![0, 0, 0, 16]
            (addf (shapeCast S16x16x64x96
              (matmul dot_S16x1024x16_S16x16x96_S16x1024x96_2_1_1_2_0_0 none (truncf .bf16 (shapeCast S16x1024x16 v0 h1) hb)
                (truncf .bf16 v3 hb) (constant S16x1024x96 .f32 0x00000000#32)) h2)
              (broadcastTo S16x16x64x96 (shapeCast S16x1x1x96 v8 h3) h4)) s16⟩] hc (ix4 g r c h)
      = Cert.Tiles.preB v0 v3 v8 v12 v13 g r c h := by
  unfold Cert.Tiles.preB
  by_cases h0 : h.val < 8
  · rw [if_pos h0, bands_lo _ _ _ hc g r c h h0 (Cert.Tiles.band h) (by show h.val % 8 = h.val; omega), addf_apply,
      hslice_at 0 _ s0 g r c (Cert.Tiles.band h) h (by show h.val = 0 + h.val % 8; omega), rowpos_apply, lin_apply]
  · rw [if_neg h0]
    by_cases h1' : h.val < 16
    · rw [if_pos h1', bands_mid _ _ _ hc g r c h h0 h1' (Cert.Tiles.band h) (by show h.val % 8 + 8 = h.val; omega), addf_apply,
        hslice_at 8 _ s8 g r c (Cert.Tiles.band h) h (by show h.val = 8 + h.val % 8; omega), colpos_apply, lin_apply]
    · have hlt : h.val - 16 < 80 := by have := h.isLt; omega
      rw [if_neg h1', bands_hi _ _ _ hc g r c h h0 h1' ⟨h.val - 16, hlt⟩ (by show h.val - 16 + 16 = h.val; omega),
        hslice_at 16 _ s16 g r c ⟨h.val - 16, hlt⟩ h (by show h.val = 16 + (h.val - 16); omega), lin_apply]

/-- The second product at (g, r, c, o): the activated hidden units against column o of the block's `w2`. -/
theorem pay3_apply (v0 : Vec Ideal S16x16x64x16 .f32) (v3 : Vec Ideal S16x16x96 .f32) (v8 : Vec Ideal S16x96 .f32)
    (v12 : Vec Ideal S16x16x8 .f32) (v13 : Vec Ideal S16x64x8 .f32) (v31 : Vec Ideal S16x96x16 .f32)
    (g r : Fin 16) (c : Fin 64) (o : Fin 16) :
    k0_pay3 v0 v3 v8 v12 v13 v31 (ix4 g r c o)
      = ∑ h : Fin 96, Cert.Tiles.act (Cert.Tiles.preB v0 v3 v8 v12 v13 g r c h) * v31 (ix3 g h o) := by
  unfold k0_pay3
  rw [pay2_eq]
  rw [split_apply (H := 16)]
  refine (Ideal.matmul_constant_zero_apply _ none _ _ _).trans ?_
  refine (Cert.LibBatchedDot.sum_eq dot_S16x1024x96_S16x96x16_S16x1024x16_2_1_1_2_0_0 rfl rfl rfl rfl rfl rfl _ _ g (tileB r c) o).trans ?_
  refine Finset.sum_congr rfl fun h _ => ?_
  rw [truncf_apply, truncf_apply, merge_apply (H := 96), act_apply, hid_apply]

/-- The stored value at (g, r, c, o): the second product plus its bias, plus the tile's entry scaled. -/
theorem pay1_apply (v1 v35 : FVec Ideal S16x16x64x16 .f32) (v36 v37 : Vec Ideal S16x16 .f32)
    (g r : Fin 16) (c : Fin 64) (o : Fin 16) :
    k0_pay1 v1 v35 v36 v37 (ix4 g r c o) = (v35 (ix4 g r c o) + v36 (ix2 g o)) + v1 (ix4 g r c o) * v37 (ix2 g o) := by
  unfold k0_pay1
  rw [addf_apply, addf_apply, mulf_apply, row_apply v36 _ _ (by decide), row_apply v37 _ _ (by decide)]

/-- The block the body leaves in the output window's buffer, read at (block, tile row, tile column, entry). -/
theorem out0_8_apply (x0 : Vec Ideal S16x16x64x16 .f32) (x1 : Vec Ideal S16x16x96 .f32) (x2 : Vec Ideal S16x96 .f32)
    (x3 : Vec Ideal S16x16x8 .f32) (x4 : Vec Ideal S16x64x8 .f32) (x5 : Vec Ideal S16x96x16 .f32) (x6 x7 : Vec Ideal S16x16 .f32)
    (g r : Fin 16) (c : Fin 64) (o : Fin 16) :
    out0_8 x0 x1 x2 x3 x4 x5 x6 x7 (ix4 g r c o) = Cert.Tiles.outB x0 x1 x2 x3 x4 x5 x6 x7 g r c o := by
  rw [out0_8_eq, pay1_apply, pay2_eq, pay3_apply]
  rfl

end Cert.KernelIdeal.Pay

end
-- ==== Proof.KBlocks.lean ====
/-
  The kernel's grid: each point's operand blocks read off the arrays, and the block a point writes back as a block of
  the mathematical function of the arrays.
-/
import proofs.«156347_j26594437497233_1_alg».proof.Proof.Gen.KernelIdeal.Frame
import proofs.«156347_j26594437497233_1_alg».proof.Proof.Spec
import proofs.«156347_j26594437497233_1_alg».proof.Proof.KPayload
import Idealize.ShloMosaic.Lib.Pipeline.Value
import Idealize.ShloMosaic.Lib.StableHlo.Run

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The printed index maps over the grid of 16 × 4 points: point `t` is (t / 4, t % 4); the tiles and the row positional
    table move on both axes, every other operand on the first only. -/
theorem idx_facts : ∀ t : Fin cfg0.N,
    win0_0.index t (0 : Fin 4) = t.val / 4 ∧ win0_0.index t (1 : Fin 4) = t.val % 4 ∧ win0_0.index t (2 : Fin 4) = 0 ∧ win0_0.index t (3 : Fin 4) = 0
    ∧ win0_1.index t (0 : Fin 3) = t.val / 4 ∧ win0_1.index t (1 : Fin 3) = 0 ∧ win0_1.index t (2 : Fin 3) = 0
    ∧ win0_2.index t (0 : Fin 2) = t.val / 4 ∧ win0_2.index t (1 : Fin 2) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = 0 ∧ win0_4.index t (2 : Fin 3) = 0
    ∧ win0_5.index t (0 : Fin 3) = t.val / 4 ∧ win0_5.index t (1 : Fin 3) = 0 ∧ win0_5.index t (2 : Fin 3) = 0
    ∧ win0_6.index t (0 : Fin 2) = t.val / 4 ∧ win0_6.index t (1 : Fin 2) = 0
    ∧ win0_7.index t (0 : Fin 2) = t.val / 4 ∧ win0_7.index t (1 : Fin 2) = 0
    ∧ win0_8.index t (0 : Fin 4) = t.val / 4 ∧ win0_8.index t (1 : Fin 4) = t.val % 4 ∧ win0_8.index t (2 : Fin 4) = 0 ∧ win0_8.index t (3 : Fin 4) = 0 :=
  (by decide +kernel : ∀ t : Fin grid0.N, _)

/-- The tiles' block at point `t`, entry by entry. -/
theorem blk0_apply (c : Dev nD) (t : Fin cfg0.N) (g r : Fin 16) (cc : Fin 64) (k : Fin 16) (b : Fin 256) (rr : Fin 64)
    (hb : b.val = 16 * (t.val / 4) + g.val) (hr : rr.val = 16 * (t.val % 4) + r.val) :
    (iblk m c 0 t : Vec Ideal S16x16x64x16 .f32) (ix4 g r cc k) = (V m c main_v2 : S256x64x64x16.Idx → EReal) (ix4 b rr cc k) := by
  obtain ⟨e0, e1, e2, e3, -⟩ := idx_facts t
  unfold iblk
  rw [View.read_apply]
  show V m c main_v2 _ = V m c main_v2 _
  congr 1
  funext a
  apply Fin.ext
  match a with
  | ⟨0, _⟩ => show win0_0.index t (0 : Fin 4) * 16 + 1 * g.val = b.val; omega
  | ⟨1, _⟩ => show win0_0.index t (1 : Fin 4) * 16 + 1 * r.val = rr.val; omega
  | ⟨2, _⟩ => show win0_0.index t (2 : Fin 4) * 64 + 1 * cc.val = cc.val; omega
  | ⟨3, _⟩ => show win0_0.index t (3 : Fin 4) * 16 + 1 * k.val = k.val; omega

/-- The first layer's weights at point `t`. -/
theorem blk1_apply (c : Dev nD) (t : Fin cfg0.N) (g : Fin 16) (k : Fin 16) (h : Fin 96) (b : Fin 256)
    (hb : b.val = 16 * (t.val / 4) + g.val) :
    (iblk m c 1 t : Vec Ideal S16x16x96 .f32) (ix3 g k h) = (V m c main_arg1 : S256x16x96.Idx → EReal) (ix3 b k h) := by
  obtain ⟨-, -, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 16 + 1 * g.val = b.val; omega
  | ⟨1, _⟩ => show win0_1.index t (1 : Fin 3) * 16 + 1 * k.val = k.val; omega
  | ⟨2, _⟩ => show win0_1.index t (2 : Fin 3) * 96 + 1 * h.val = h.val; omega

/-- The first layer's bias at point `t`. -/
theorem blk2_apply (c : Dev nD) (t : Fin cfg0.N) (g : Fin 16) (h : Fin 96) (b : Fin 256)
    (hb : b.val = 16 * (t.val / 4) + g.val) :
    (iblk m c 2 t : Vec Ideal S16x96 .f32) (ix2 g h) = (V m c main_arg2 : S256x96.Idx → EReal) (ix2 b h) := by
  obtain ⟨-, -, -, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 16 + 1 * g.val = b.val; omega
  | ⟨1, _⟩ => show win0_2.index t (1 : Fin 2) * 96 + 1 * h.val = h.val; omega

/-- The rows' positional table at point `t`. -/
theorem blk3_apply (c : Dev nD) (t : Fin cfg0.N) (g r : Fin 16) (e : Fin 8) (b : Fin 256) (rr : Fin 64)
    (hb : b.val = 16 * (t.val / 4) + g.val) (hr : rr.val = 16 * (t.val % 4) + r.val) :
    (iblk m c 3 t : Vec Ideal S16x16x8 .f32) (ix3 g r e) = (V m c main_arg3 : S256x64x8.Idx → EReal) (ix3 b rr e) := by
  obtain ⟨-, -, -, -, -, -, -, -, -, e0, e1, e2, -⟩ := idx_facts t
  unfold iblk
  rw [View.read_apply]
  show V m c main_arg3 _ = V m c main_arg3 _
  congr 1
  funext a
  apply Fin.ext
  match a with
  | ⟨0, _⟩ => show win0_3.index t (0 : Fin 3) * 16 + 1 * g.val = b.val; omega
  | ⟨1, _⟩ => show win0_3.index t (1 : Fin 3) * 16 + 1 * r.val = rr.val; omega
  | ⟨2, _⟩ => show win0_3.index t (2 : Fin 3) * 8 + 1 * e.val = e.val; omega

/-- The columns' positional table at point `t`. -/
theorem blk4_apply (c : Dev nD) (t : Fin cfg0.N) (g : Fin 16) (cc : Fin 64) (e : Fin 8) (b : Fin 256)
    (hb : b.val = 16 * (t.val / 4) + g.val) :
    (iblk m c 4 t : Vec Ideal S16x64x8 .f32) (ix3 g cc e) = (V m c main_arg4 : S256x64x8.Idx → EReal) (ix3 b cc e) := by
  obtain ⟨-, -, -, -, -, -, -, -, -, -, -, -, e0, e1, e2, -⟩ := idx_facts t
  unfold iblk
  rw [View.read_apply]
  show V m c main_arg4 _ = V m c main_arg4 _
  congr 1
  funext a
  apply Fin.ext
  match a with
  | ⟨0, _⟩ => show win0_4.index t (0 : Fin 3) * 16 + 1 * g.val = b.val; omega
  | ⟨1, _⟩ => show win0_4.index t (1 : Fin 3) * 64 + 1 * cc.val = cc.val; omega
  | ⟨2, _⟩ => show win0_4.index t (2 : Fin 3) * 8 + 1 * e.val = e.val; omega

/-- The second layer's weights at point `t`. -/
theorem blk5_apply (c : Dev nD) (t : Fin cfg0.N) (g : Fin 16) (h : Fin 96) (o : Fin 16) (b : Fin 256)
    (hb : b.val = 16 * (t.val / 4) + g.val) :
    (iblk m c 5 t : Vec Ideal S16x96x16 .f32) (ix3 g h o) = (V m c main_arg5 : S256x96x16.Idx → EReal) (ix3 b h o) := by
  obtain ⟨-, -, -, -, -, -, -, -, -, -, -, -, -, -, -, e0, e1, e2, -⟩ := idx_facts t
  unfold iblk
  rw [View.read_apply]
  show V m c main_arg5 _ = V m c main_arg5 _
  congr 1
  funext a
  apply Fin.ext
  match a with
  | ⟨0, _⟩ => show win0_5.index t (0 : Fin 3) * 16 + 1 * g.val = b.val; omega
  | ⟨1, _⟩ => show win0_5.index t (1 : Fin 3) * 96 + 1 * h.val = h.val; omega
  | ⟨2, _⟩ => show win0_5.index t (2 : Fin 3) * 16 + 1 * o.val = o.val; omega

/-- The second layer's bias at point `t`. -/
theorem blk6_apply (c : Dev nD) (t : Fin cfg0.N) (g : Fin 16) (o : Fin 16) (b : Fin 256)
    (hb : b.val = 16 * (t.val / 4) + g.val) :
    (iblk m c 6 t : Vec Ideal S16x16 .f32) (ix2 g o) = (V m c main_arg6 : S256x16.Idx → EReal) (ix2 b o) := by
  obtain ⟨-, -, -, -, -, -, -, -, -, -, -, -, -, -, -, -, -, -, e0, e1, -⟩ := idx_facts t
  unfold iblk
  rw [View.read_apply]
  show V m c main_arg6 _ = V m c main_arg6 _
  congr 1
  funext a
  apply Fin.ext
  match a with
  | ⟨0, _⟩ => show win0_6.index t (0 : Fin 2) * 16 + 1 * g.val = b.val; omega
  | ⟨1, _⟩ => show win0_6.index t (1 : Fin 2) * 16 + 1 * o.val = o.val; omega

/-- The scales at point `t`. -/
theorem blk7_apply (c : Dev nD) (t : Fin cfg0.N) (g : Fin 16) (o : Fin 16) (b : Fin 256)
    (hb : b.val = 16 * (t.val / 4) + g.val) :
    (iblk m c 7 t : Vec Ideal S16x16 .f32) (ix2 g o) = (V m c main_arg7 : S256x16.Idx → EReal) (ix2 b o) := by
  obtain ⟨-, -, -, -, -, -, -, -, -, -, -, -, -, -, -, -, -, -, -, -, e0, e1, -⟩ := idx_facts t
  unfold iblk
  rw [View.read_apply]
  show V m c main_arg7 _ = V m c main_arg7 _
  congr 1
  funext a
  apply Fin.ext
  match a with
  | ⟨0, _⟩ => show win0_7.index t (0 : Fin 2) * 16 + 1 * g.val = b.val; omega
  | ⟨1, _⟩ => show win0_7.index t (1 : Fin 2) * 16 + 1 * o.val = o.val; omega

/-- The network on a point's operands is the network on the arrays, where the operands are the arrays' entries at
    block `b` and tile row `rr`. -/
theorem outB_of_blocks (X : FVec Ideal Cert.Tiles.SX .f32) (w1 : FVec Ideal Cert.Tiles.SW1 .f32) (b1 : FVec Ideal Cert.Tiles.SB1 .f32)
    (eh ew : FVec Ideal Cert.Tiles.SE .f32) (w2 : FVec Ideal Cert.Tiles.SW2 .f32) (b2 sc : FVec Ideal Cert.Tiles.SB2 .f32)
    (x0 : FVec Ideal Cert.Tiles.BX .f32) (x1 : FVec Ideal Cert.Tiles.BW1 .f32) (x2 : FVec Ideal Cert.Tiles.BB1 .f32)
    (x3 : FVec Ideal Cert.Tiles.BEH .f32) (x4 : FVec Ideal Cert.Tiles.BEW .f32) (x5 : FVec Ideal Cert.Tiles.BW2 .f32)
    (x6 x7 : FVec Ideal Cert.Tiles.BB2 .f32) (b : Fin 256) (rr : Fin 64) (g r : Fin 16)
    (h0 : ∀ cc k, x0 (ix4 g r cc k) = X (ix4 b rr cc k))
    (h1 : ∀ k h, x1 (ix3 g k h) = w1 (ix3 b k h))
    (h2 : ∀ h, x2 (ix2 g h) = b1 (ix2 b h))
    (h3 : ∀ e, x3 (ix3 g r e) = eh (ix3 b rr e))
    (h4 : ∀ cc e, x4 (ix3 g cc e) = ew (ix3 b cc e))
    (h5 : ∀ h o, x5 (ix3 g h o) = w2 (ix3 b h o))
    (h6 : ∀ o, x6 (ix2 g o) = b2 (ix2 b o))
    (h7 : ∀ o, x7 (ix2 g o) = sc (ix2 b o))
    (cc : Fin 64) (o : Fin 16) :
    Cert.Tiles.outB x0 x1 x2 x3 x4 x5 x6 x7 g r cc o = Cert.Tiles.outAt X w1 b1 eh ew w2 b2 sc b rr cc o := by
  have hp : ∀ h, Cert.Tiles.preB x0 x1 x2 x3 x4 g r cc h = Cert.Tiles.pre X w1 b1 eh ew b rr cc h := by
    intro h
    unfold Cert.Tiles.preB Cert.Tiles.pre
    simp only [h0, h1, h2, h3, h4]
  unfold Cert.Tiles.outB Cert.Tiles.outAt
  simp only [hp, h5, h6, h7, h0]

/-- The grid has 64 points. -/
theorem t_lt (t : Fin cfg0.N) : t.val < 64 := lt_of_lt_of_eq t.isLt (show cfg0.N = 64 from N_0)

/-- The function of the arrays as the region finds them. -/
abbrev G (c : Dev nD) : S256x64x64x16.Idx → EReal :=
  Cert.Tiles.out (V m c main_v2) (V m c main_arg1) (V m c main_arg2) (V m c main_arg3) (V m c main_arg4) (V m c main_arg5)
    (V m c main_arg6) (V m c main_arg7)

/-- What point `t` writes back is its block of the function of the arrays. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  have ht := t_lt t
  refine funext fun (y : S16x16x64x16.Idx) => ?_
  obtain ⟨g, r, cc, o, rfl⟩ : ∃ g r cc o, y = ix4 g r cc o := ⟨y 0, y 1, y 2, y 3, eq_ix4 y⟩
  have hg := g.isLt
  have hr := r.isLt
  show out0_8 (iblk m c 0 t) (iblk m c 1 t) (iblk m c 2 t) (iblk m c 3 t) (iblk m c 4 t) (iblk m c 5 t) (iblk m c 6 t) (iblk m c 7 t) (ix4 g r cc o)
      = G m c (((cfg0.win 8).blk t).view.emb (ix4 g r cc o))
  rw [Pay.out0_8_apply]
  have hemb : ((cfg0.win 8).blk t).view.emb (ix4 g r cc o)
      = ix4 (⟨16 * (t.val / 4) + g.val, by omega⟩ : Fin 256) (⟨16 * (t.val % 4) + r.val, by omega⟩ : Fin 64) cc o := by
    obtain ⟨-, -, -, -, -, -, -, -, -, -, -, -, -, -, -, -, -, -, -, -, -, -, e0, e1, e2, e3⟩ := idx_facts t
    funext a
    apply Fin.ext
    match a with
    | ⟨0, _⟩ => show win0_8.index t (0 : Fin 4) * 16 + 1 * g.val = 16 * (t.val / 4) + g.val; omega
    | ⟨1, _⟩ => show win0_8.index t (1 : Fin 4) * 16 + 1 * r.val = 16 * (t.val % 4) + r.val; omega
    | ⟨2, _⟩ => show win0_8.index t (2 : Fin 4) * 64 + 1 * cc.val = cc.val; omega
    | ⟨3, _⟩ => show win0_8.index t (3 : Fin 4) * 16 + 1 * o.val = o.val; omega
  rw [hemb]
  show _ = Cert.Tiles.outAt _ _ _ _ _ _ _ _ _ _ _ _
  exact outB_of_blocks _ _ _ _ _ _ _ _ _ _ _ _ _ _ _ _ _ _ _ _
    (fun cc k => blk0_apply m c t g r cc k _ _ rfl rfl)
    (fun k h => blk1_apply m c t g k h _ rfl)
    (fun h => blk2_apply m c t g h _ rfl)
    (fun e => blk3_apply m c t g r e _ _ rfl rfl)
    (fun cc e => blk4_apply m c t g cc e _ rfl)
    (fun h o => blk5_apply m c t g h o _ rfl)
    (fun o => blk6_apply m c t g o _ rfl)
    (fun o => blk7_apply m c t g o _ rfl) cc o

end Cert.KernelIdeal.HandValue

end
-- ==== Proof.KFinal.lean ====
/-
  The output array after the grid: every entry lies in the block of exactly the point (block / 16, tile row / 16), so
  the array ends holding the mathematical function of the arrays.
-/
import proofs.«156347_j26594437497233_1_alg».proof.Proof.KBlocks

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- An index of the array is in point `t`'s block iff each coordinate is in the block's range on its axis. -/
theorem mem_blk (t : Fin cfg0.N) (i : S256x64x64x16.Idx) :
    i ∈ ((cfg0.win 8).blk t).view.set ↔ ∀ a : Fin 4, win0_8.index t a * S16x16x64x16.size a ≤ (i a).val ∧ (i a).val < win0_8.index t a * S16x16x64x16.size a + S16x16x64x16.size a := by
  show i ∈ ((View.whole main_v3).slice (win0_8.rect t)).set ↔ _
  rw [View.set_slice_whole, Rect.mem_set_unit]
  exact Iff.rfl

/-- Every entry of the array is in the block some point writes back: that of point (block / 16, tile row / 16). -/
theorem cover (i : S256x64x64x16.Idx) :
    ∃ t : Fin cfg0.N, (cfg0.win 8).flush t = true ∧ i ∈ ((cfg0.win 8).blk t).view.set := by
  have h0 : (i 0).val < 256 := (i 0).isLt
  have h1 : (i 1).val < 64 := (i 1).isLt
  have h2 : (i 2).val < 64 := (i 2).isLt
  have h3 : (i 3).val < 16 := (i 3).isLt
  have hN : (i 0).val / 16 * 4 + (i 1).val / 16 < cfg0.N := lt_of_lt_of_eq (by omega : _ < 64) (show cfg0.N = 64 from N_0).symm
  refine ⟨⟨(i 0).val / 16 * 4 + (i 1).val / 16, hN⟩, flush0_8 _, ?_⟩
  rw [mem_blk]
  obtain ⟨-, -, -, -, -, -, -, -, -, -, -, -, -, -, -, -, -, -, -, -, -, -, e0, e1, e2, e3⟩ :=
    idx_facts ⟨(i 0).val / 16 * 4 + (i 1).val / 16, hN⟩
  have tv : (⟨(i 0).val / 16 * 4 + (i 1).val / 16, hN⟩ : Fin cfg0.N).val = (i 0).val / 16 * 4 + (i 1).val / 16 := rfl
  rw [tv] at e0 e1
  intro a
  match a with
  | ⟨0, _⟩ =>
    show win0_8.index _ (0 : Fin 4) * 16 ≤ (i 0).val ∧ (i 0).val < win0_8.index _ (0 : Fin 4) * 16 + 16
    rw [e0]; omega
  | ⟨1, _⟩ =>
    show win0_8.index _ (1 : Fin 4) * 16 ≤ (i 1).val ∧ (i 1).val < win0_8.index _ (1 : Fin 4) * 16 + 16
    rw [e1]; omega
  | ⟨2, _⟩ =>
    show win0_8.index _ (2 : Fin 4) * 64 ≤ (i 2).val ∧ (i 2).val < win0_8.index _ (2 : Fin 4) * 64 + 64
    rw [e2]; omega
  | ⟨3, _⟩ =>
    show win0_8.index _ (3 : Fin 4) * 16 ≤ (i 3).val ∧ (i 3).val < win0_8.index _ (3 : Fin 4) * 16 + 16
    rw [e3]; omega

/-- The output array after the last point: the function of the arrays as the region finds them. -/
theorem final (c : Dev nD) : (dats m 0 c).arrAt 8 cfg0.N = G m c :=
  (dats m 0 c).arrAt_eq_of_cover 8 (G m c) (fun t _ => flushed_eq m c t) (fun i => cover i)

end Cert.KernelIdeal.HandValue

end
-- ==== Proof.KTerm.lean ====
/-
  The kernel program's layout stages around its region: the matrix cut into (block, tile row, tile column, entry), and
  the inverse.
-/
import proofs.«156347_j26594437497233_1_alg».proof.Proof.Gen.KernelIdeal

noncomputable section

namespace Cert.KernelIdeal.Term

open Idealize.ShloMosaic Cert.KernelIdeal
open Cert.KernelIdeal.Facts₀

variable {F : FTy → Type} [FloatOps F]

/-- The matrix as (block, tile row, tile column, entry). -/
def tilesK (a0 : FVec F S4096x4096 .f32) : FVec F S256x64x64x16 .f32 :=
  shapeCast S256x64x64x16
    (transpose S16x16x64x64x4x4 [0, 3, 1, 4, 2, 5] (shapeCast S16x64x4x16x64x4 a0 shapeCasts_S4096x4096_S16x64x4x16x64x4)
      transposes_S16x64x4x16x64x4_S16x16x64x64x4x4_0_3_1_4_2_5)
    shapeCasts_S16x16x64x64x4x4_S256x64x64x16

/-- The inverse layout: (block, tile row, tile column, entry) back to the matrix. -/
def tailK (y : FVec F S256x64x64x16 .f32) : FVec F S4096x4096 .f32 :=
  shapeCast S4096x4096
    (transpose S16x64x4x16x64x4 [0, 2, 4, 1, 3, 5] (shapeCast S16x16x64x64x4x4 y shapeCasts_S256x64x64x16_S16x16x64x64x4x4)
      transposes_S16x16x64x64x4x4_S16x64x4x16x64x4_0_2_4_1_3_5)
    shapeCasts_S16x64x4x16x64x4_S4096x4096

end Cert.KernelIdeal.Term

end
-- ==== Proof.KValue.lean ====
/-
  The kernel program's value: the result array is the inverse layout of the mathematical function of the tiled matrix and
  the other arguments, and the arguments end unchanged.
-/
import proofs.«156347_j26594437497233_1_alg».proof.Proof.KFinal
import proofs.«156347_j26594437497233_1_alg».proof.Proof.KTerm

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The region finds the matrix cut into tiles: the three layout stages before it, composed. -/
theorem V_main_v2 (c : Dev nD) :
    (V m c main_v2 : S256x64x64x16.Idx → EReal) = Cert.KernelIdeal.Term.tilesK (F := Ideal) (m ((c.tc : Thread nD τ).loc main_arg0)) := by
  show StableHlo.after hostOps0 (fun b => m (c, b)) (Proc.devRef .tc main_v2) = _
  after_results
  rfl

/-- The function of the arrays as the region finds them is the function of the tiled matrix and the other arguments. -/
theorem G_eq (c : Dev nD) :
    G m c = Cert.Tiles.out (Cert.KernelIdeal.Term.tilesK (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show Cert.Tiles.out (V m c main_v2) (V m c main_arg1) (V m c main_arg2) (V m c main_arg3) (V m c main_arg4) (V m c main_arg5)
    (V m c main_arg6) (V m c main_arg7) = _
  rw [V_main_v2, V_main_arg1, V_main_arg2, V_main_arg3, V_main_arg4, V_main_arg5, V_main_arg6, V_main_arg7]

/-- The three layout stages after the region, applied to what the region leaves in its output array. -/
theorem tail_eq (c : Dev nD) :
    Pipeline.afterTail₀ cfgs (dats m) 0 (V0 m) [hostOps1] c main_v6 = Cert.KernelIdeal.Term.tailK (F := Ideal) (G m c) := by
  unfold Pipeline.afterTail₀
  show StableHlo.after hostOps1 _ (Proc.devRef .tc main_v6) = _
  after_results
  rw [(Pipeline.withArrays_arr spec0 launch0.win.arr_inj c _ _ 8).trans (final m c)]
  rfl

/-- THE KERNEL'S RUN: the result is the inverse layout of the function of the tiled matrix and the other arguments; the
    arguments end unchanged. -/
theorem run : θ_run (defs (F := Ideal)) (onTc (τ := τ) (main (F := Ideal))) ⟨m, fun _ => 0, ρ⟩ (fun r => ∀ c : Dev nD,
      r.2.mem ((c.tc : Thread nD τ).loc main_v6)
        = Cert.KernelIdeal.Term.tailK (Cert.Tiles.out (Cert.KernelIdeal.Term.tilesK (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (((h c).2 main_v6 (Pipeline.mem_restRefs_of main_v6 (by decide) (by decide))).trans (tail_eq m c)).trans
        (congrArg (Cert.KernelIdeal.Term.tailK (F := Ideal)) (G_eq m c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.HandValue

end
-- ==== Proof.RefTerm.lean ====
/-
  The reference's result as one term of its arguments, in stages: the matrix cut into tiles, the two-layer network
  on the tiles, and the tiles laid back into the matrix.
-/
import proofs.«156347_j26594437497233_1_alg».proof.Proof.Gen.ReferenceIdeal

noncomputable section

namespace Cert.ReferenceIdeal.Term

open Idealize.ShloMosaic Cert.ReferenceIdeal
open Cert.ReferenceIdeal.Facts₀

variable {F : FTy → Type} [FloatOps F]

/-- The matrix as (block, tile, entry): split both axes into (block, tile, entry-in-tile), bring the block and tile axes
    forward, merge. -/
def tilesR (a0 : FVec F S4096x4096 .f32) : FVec F S256x4096x16 .f32 :=
  shapeCast S256x4096x16
    (transpose S16x16x64x64x4x4 [0, 3, 1, 4, 2, 5] (shapeCast S16x64x4x16x64x4 a0 shapeCasts_S4096x4096_S16x64x4x16x64x4)
      transposes_S16x64x4x16x64x4_S16x16x64x64x4x4_0_3_1_4_2_5)
    shapeCasts_S16x16x64x64x4x4_S256x4096x16

/-- The inverse layout: (block, tile, entry) back to the matrix. -/
def tailR (y : FVec F S256x4096x16 .f32) : FVec F S4096x4096 .f32 :=
  shapeCast S4096x4096
    (transpose S16x64x4x16x64x4 [0, 2, 4, 1, 3, 5] (shapeCast S16x16x64x64x4x4 y shapeCasts_S256x4096x16_S16x16x64x64x4x4)
      transposes_S16x16x64x64x4x4_S16x64x4x16x64x4_0_2_4_1_3_5)
    shapeCasts_S16x64x4x16x64x4_S4096x4096

/-- The first layer's linear part: tiles against `w1`, plus the bias, over (block, tile row, tile column, unit). -/
def linR (X : FVec F S256x4096x16 .f32) (a1 : FVec F S256x16x96 .f32) (a2 : FVec F S256x96 .f32) : FVec F S256x64x64x96 .f32 :=
  addf (shapeCast S256x64x64x96 (Host.dotGeneral dot_S256x4096x16_S256x16x96_S256x4096x96_2_1_1_2_0_0 none X a1)
      shapeCasts_S256x4096x96_S256x64x64x96)
    (broadcastInDim S256x64x64x96 ![0, 1, 2, 3] bcast_S256x1x1x96_S256x64x64x96_0_1_2_3
      (broadcastInDim S256x1x1x96 ![0, 3] bcast_S256x96_S256x1x1x96_0_3 a2))

/-- The positional rows added on the first two bands of eight units: the row's on units 0–7, the column's on 8–15. -/
def posR (x : FVec F S256x64x64x96 .f32) (a3 a4 : FVec F S256x64x8 .f32) : FVec F S256x64x64x96 .f32 :=
  Host.scatter scatter_S256x64x64x96_S1_S256x64x64x8_0123_n_3_0 FloatOps.addf
    (Host.scatter scatter_S256x64x64x96_S1_S256x64x64x8_0123_n_3_0 FloatOps.addf x
      (broadcastInDim S1 ![] bcast_S_S1 (constantI S_ 32 0#32))
      (broadcastInDim S256x64x64x8 ![0, 1, 2, 3] bcast_S256x64x1x8_S256x64x64x8_0_1_2_3
        (broadcastInDim S256x64x1x8 ![0, 1, 3] bcast_S256x64x8_S256x64x1x8_0_1_3 a3)))
    (broadcastInDim S1 ![] bcast_S_S1 (constantI S_ 32 8#32))
    (broadcastInDim S256x64x64x8 ![0, 1, 2, 3] bcast_S256x1x64x8_S256x64x64x8_0_1_2_3
      (broadcastInDim S256x1x64x8 ![0, 2, 3] bcast_S256x64x8_S256x1x64x8_0_2_3 a4))

/-- The activation as the reference spells it: `x` where `x > 0`, else `1 · expm1(x where not x > 0, else 0)`. -/
def eluR (x : FVec F S256x64x64x96 .f32) : FVec F S256x64x64x96 .f32 :=
  select (cmpf .ogt x (broadcastInDim S256x64x64x96 ![] bcast_S_S256x64x64x96 (constant S_ .f32 0x00000000#32))) x
    (mulf (broadcastInDim S256x64x64x96 ![] bcast_S_S256x64x64x96 (constant S_ .f32 0x3F800000#32))
      (Host.expm1
        (select (cmpf .ogt x (broadcastInDim S256x64x64x96 ![] bcast_S_S256x64x64x96 (constant S_ .f32 0x00000000#32)))
          (broadcastInDim S256x64x64x96 ![] bcast_S_S256x64x64x96 (id (constant S_ .f32 0x00000000#32))) x)))

/-- The network on the tiles: second layer on the activated units, its bias, and the scaled tile itself. -/
def midR (X : FVec F S256x4096x16 .f32) (a1 : FVec F S256x16x96 .f32) (a2 : FVec F S256x96 .f32) (a3 a4 : FVec F S256x64x8 .f32)
    (a5 : FVec F S256x96x16 .f32) (a6 a7 : FVec F S256x16 .f32) : FVec F S256x4096x16 .f32 :=
  addf
    (addf
      (Host.dotGeneral dot_S256x4096x96_S256x96x16_S256x4096x16_2_1_1_2_0_0 none
        (shapeCast S256x4096x96 (eluR (posR (linR X a1 a2) a3 a4)) shapeCasts_S256x64x64x96_S256x4096x96) a5)
      (broadcastInDim S256x4096x16 ![0, 1, 2] bcast_S256x1x16_S256x4096x16_0_1_2
        (broadcastInDim S256x1x16 ![0, 2] bcast_S256x16_S256x1x16_0_2 a6)))
    (mulf X
      (broadcastInDim S256x4096x16 ![0, 1, 2] bcast_S256x1x16_S256x4096x16_0_1_2
        (broadcastInDim S256x1x16 ![0, 2] bcast_S256x16_S256x1x16_0_2 a7)))

/-- The whole reference. -/
def refOut (a0 : FVec F S4096x4096 .f32) (a1 : FVec F S256x16x96 .f32) (a2 : FVec F S256x96 .f32) (a3 a4 : FVec F S256x64x8 .f32)
    (a5 : FVec F S256x96x16 .f32) (a6 a7 : FVec F S256x16 .f32) : FVec F S4096x4096 .f32 :=
  tailR (midR (tilesR a0) a1 a2 a3 a4 a5 a6 a7)

end Cert.ReferenceIdeal.Term

end
-- ==== Proof.RefRun.lean ====
/-
  The reference program's run: @main is a straight line of 45 tensor operations (the activation function and the two
  selections it calls unfolded where they are called), so every weakly fair execution terminates with each buffer at the
  operations' fold over the launch contents; at the result buffer that fold is the staged term `refOut` of the eight
  arguments, and no operation writes an argument.
-/
import Idealize.ShloMosaic.Lib.StableHlo.Run
import proofs.«156347_j26594437497233_1_alg».proof.Proof.Gen.ReferenceIdeal
import proofs.«156347_j26594437497233_1_alg».proof.Proof.RefTerm

noncomputable section

namespace Cert.ReferenceIdeal.HandRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in program order: eighteen up to the second positional scatter; the activation's fifteen over the
    call's buffers (its eleven own, the first selection's three after the third zero, the second selection last); the
    twelve from the reshape of the activated units to the result. -/
abbrev ops : List (HloOp τ sig (Elt F)) :=
  [ reshape main_arg0 main_v0 rfl shapeCasts_S4096x4096_S16x64x4x16x64x4,
    unary main_v0 main_v1 ((transpose S16x16x64x64x4x4 [0, 3, 1, 4, 2, 5] · transposes_S16x64x4x16x64x4_S16x16x64x64x4x4_0_3_1_4_2_5) : (⟨S16x64x4x16x64x4, .f32⟩ : BufTy).Contents (Elt F) → (⟨S16x16x64x64x4x4, .f32⟩ : BufTy).Contents (Elt F)),
    reshape main_v1 main_v2 rfl shapeCasts_S16x16x64x64x4x4_S256x4096x16,
    binary main_v2 main_arg1 main_v3 ((fun l r => Host.dotGeneral dot_S256x4096x16_S256x16x96_S256x4096x96_2_1_1_2_0_0 none l r) : (⟨S256x4096x16, .f32⟩ : BufTy).Contents (Elt F) → (⟨S256x16x96, .f32⟩ : BufTy).Contents (Elt F) → (⟨S256x4096x96, .f32⟩ : BufTy).Contents (Elt F)),
    reshape main_v3 main_v4 rfl shapeCasts_S256x4096x96_S256x64x64x96,
    unary main_arg2 main_v5 (broadcastInDim S256x1x1x96 ![0, 3] bcast_S256x96_S256x1x1x96_0_3 : (⟨S256x96, .f32⟩ : BufTy).Contents (Elt F) → (⟨S256x1x1x96, .f32⟩ : BufTy).Contents (Elt F)),
    unary main_v5 main_v6 (broadcastInDim S256x64x64x96 ![0, 1, 2, 3] bcast_S256x1x1x96_S256x64x64x96_0_1_2_3 : (⟨S256x1x1x96, .f32⟩ : BufTy).Contents (Elt F) → (⟨S256x64x64x96, .f32⟩ : BufTy).Contents (Elt F)),
    binary main_v4 main_v6 main_v7 (addf : (⟨S256x64x64x96, .f32⟩ : BufTy).Contents (Elt F) → (⟨S256x64x64x96, .f32⟩ : BufTy).Contents (Elt F) → (⟨S256x64x64x96, .f32⟩ : BufTy).Contents (Elt F)),
    unary main_arg3 main_v8 (broadcastInDim S256x64x1x8 ![0, 1, 3] bcast_S256x64x8_S256x64x1x8_0_1_3 : (⟨S256x64x8, .f32⟩ : BufTy).Contents (Elt F) → (⟨S256x64x1x8, .f32⟩ : BufTy).Contents (Elt F)),
    nullary main_c (constantI S_ 32 0#32),
    unary main_c main_v9 (broadcastInDim S1 ![] bcast_S_S1 : (⟨S_, .i32⟩ : BufTy).Contents (Elt F) → (⟨S1, .i32⟩ : BufTy).Contents (Elt F)),
    unary main_v8 main_v10 (broadcastInDim S256x64x64x8 ![0, 1, 2, 3] bcast_S256x64x1x8_S256x64x64x8_0_1_2_3 : (⟨S256x64x1x8, .f32⟩ : BufTy).Contents (Elt F) → (⟨S256x64x64x8, .f32⟩ : BufTy).Contents (Elt F)),
    ternary main_v7 main_v9 main_v10 main_v11 ((fun x i u => Host.scatter scatter_S256x64x64x96_S1_S256x64x64x8_0123_n_3_0 FloatOps.addf x i u) : (⟨S256x64x64x96, .f32⟩ : BufTy).Contents (Elt F) → (⟨S1, .i32⟩ : BufTy).Contents (Elt F) → (⟨S256x64x64x8, .f32⟩ : BufTy).Contents (Elt F) → (⟨S256x64x64x96, .f32⟩ : BufTy).Contents (Elt F)),
    unary main_arg4 main_v12 (broadcastInDim S256x1x64x8 ![0, 2, 3] bcast_S256x64x8_S256x1x64x8_0_2_3 : (⟨S256x64x8, .f32⟩ : BufTy).Contents (Elt F) → (⟨S256x1x64x8, .f32⟩ : BufTy).Contents (Elt F)),
    nullary main_c_0 (constantI S_ 32 8#32),
    unary main_c_0 main_v13 (broadcastInDim S1 ![] bcast_S_S1 : (⟨S_, .i32⟩ : BufTy).Contents (Elt F) → (⟨S1, .i32⟩ : BufTy).Contents (Elt F)),
    unary main_v12 main_v14 (broadcastInDim S256x64x64x8 ![0, 1, 2, 3] bcast_S256x1x64x8_S256x64x64x8_0_1_2_3 : (⟨S256x1x64x8, .f32⟩ : BufTy).Contents (Elt F) → (⟨S256x64x64x8, .f32⟩ : BufTy).Contents (Elt F)),
    ternary main_v11 main_v13 main_v14 main_v15 ((fun x i u => Host.scatter scatter_S256x64x64x96_S1_S256x64x64x8_0123_n_3_0 FloatOps.addf x i u) : (⟨S256x64x64x96, .f32⟩ : BufTy).Contents (Elt F) → (⟨S1, .i32⟩ : BufTy).Contents (Elt F) → (⟨S256x64x64x8, .f32⟩ : BufTy).Contents (Elt F) → (⟨S256x64x64x96, .f32⟩ : BufTy).Contents (Elt F)),
    TRef.nullary main_call0.cst (constant S_ .f32 0x00000000#32),
    TRef.unary main_call0.cst main_call0.v0 (broadcastInDim S256x64x64x96 ![] bcast_S_S256x64x64x96),
    TRef.binary (.of main_v15) main_call0.v0 main_call0.v1 (cmpf .ogt),
    TRef.nullary main_call0.cst_0 (constant S_ .f32 0x00000000#32),
    TRef.unary main_call0.cst_0 main_call0.v2 (broadcastInDim S256x64x64x96 ![] bcast_S_S256x64x64x96),
    TRef.binary (.of main_v15) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S256x64x64x96 ![] bcast_S_S256x64x64x96),
    TRef.ternary main_call0.v3 main_call0.call0.v1 (.of main_v15) main_call0.call0.v2 select,
    TRef.unary main_call0.call0.v2 main_call0.v5 Host.expm1,
    TRef.nullary main_call0.cst_2 (constant S_ .f32 0x3F800000#32),
    TRef.unary main_call0.cst_2 main_call0.v6 (broadcastInDim S256x64x64x96 ![] bcast_S_S256x64x64x96),
    TRef.binary main_call0.v6 main_call0.v5 main_call0.v7 mulf,
    TRef.ternary main_call0.v1 (.of main_v15) main_call0.v7 main_call0.call1.v0 select,
    reshape main_v16 main_v17 rfl shapeCasts_S256x64x64x96_S256x4096x96,
    binary main_v17 main_arg5 main_v18 ((fun l r => Host.dotGeneral dot_S256x4096x96_S256x96x16_S256x4096x16_2_1_1_2_0_0 none l r) : (⟨S256x4096x96, .f32⟩ : BufTy).Contents (Elt F) → (⟨S256x96x16, .f32⟩ : BufTy).Contents (Elt F) → (⟨S256x4096x16, .f32⟩ : BufTy).Contents (Elt F)),
    unary main_arg6 main_v19 (broadcastInDim S256x1x16 ![0, 2] bcast_S256x16_S256x1x16_0_2 : (⟨S256x16, .f32⟩ : BufTy).Contents (Elt F) → (⟨S256x1x16, .f32⟩ : BufTy).Contents (Elt F)),
    unary main_v19 main_v20 (broadcastInDim S256x4096x16 ![0, 1, 2] bcast_S256x1x16_S256x4096x16_0_1_2 : (⟨S256x1x16, .f32⟩ : BufTy).Contents (Elt F) → (⟨S256x4096x16, .f32⟩ : BufTy).Contents (Elt F)),
    binary main_v18 main_v20 main_v21 (addf : (⟨S256x4096x16, .f32⟩ : BufTy).Contents (Elt F) → (⟨S256x4096x16, .f32⟩ : BufTy).Contents (Elt F) → (⟨S256x4096x16, .f32⟩ : BufTy).Contents (Elt F)),
    unary main_arg7 main_v22 (broadcastInDim S256x1x16 ![0, 2] bcast_S256x16_S256x1x16_0_2 : (⟨S256x16, .f32⟩ : BufTy).Contents (Elt F) → (⟨S256x1x16, .f32⟩ : BufTy).Contents (Elt F)),
    unary main_v22 main_v23 (broadcastInDim S256x4096x16 ![0, 1, 2] bcast_S256x1x16_S256x4096x16_0_1_2 : (⟨S256x1x16, .f32⟩ : BufTy).Contents (Elt F) → (⟨S256x4096x16, .f32⟩ : BufTy).Contents (Elt F)),
    binary main_v2 main_v23 main_v24 (mulf : (⟨S256x4096x16, .f32⟩ : BufTy).Contents (Elt F) → (⟨S256x4096x16, .f32⟩ : BufTy).Contents (Elt F) → (⟨S256x4096x16, .f32⟩ : BufTy).Contents (Elt F)),
    binary main_v21 main_v24 main_v25 (addf : (⟨S256x4096x16, .f32⟩ : BufTy).Contents (Elt F) → (⟨S256x4096x16, .f32⟩ : BufTy).Contents (Elt F) → (⟨S256x4096x16, .f32⟩ : BufTy).Contents (Elt F)),
    reshape main_v25 main_v26 rfl shapeCasts_S256x4096x16_S16x16x64x64x4x4,
    unary main_v26 main_v27 ((transpose S16x64x4x16x64x4 [0, 2, 4, 1, 3, 5] · transposes_S16x16x64x64x4x4_S16x64x4x16x64x4_0_2_4_1_3_5) : (⟨S16x16x64x64x4x4, .f32⟩ : BufTy).Contents (Elt F) → (⟨S16x64x4x16x64x4, .f32⟩ : BufTy).Contents (Elt F)),
    reshape main_v27 main_v28 rfl shapeCasts_S16x64x4x16x64x4_S4096x4096 ]

-- forty-five binds re-associated under the chain
set_option maxRecDepth 2048 in
/-- @main is that straight line: the three functions unfolded at their calls, sequencing re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., binary_bufs_sub .., reshape_bufs_sub .., unary_bufs_sub .., unary_bufs_sub .., binary_bufs_sub .., unary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., reshape_bufs_sub .., binary_bufs_sub .., unary_bufs_sub .., unary_bufs_sub .., binary_bufs_sub .., unary_bufs_sub .., unary_bufs_sub .., binary_bufs_sub .., binary_bufs_sub .., reshape_bufs_sub .., unary_bufs_sub .., reshape_bufs_sub ..⟩

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first stretch: the tiles, the first layer and the two positional scatters. -/
abbrev ops₁ : List (HloOp τ sig (Elt F)) :=
  [ reshape main_arg0 main_v0 rfl shapeCasts_S4096x4096_S16x64x4x16x64x4,
    unary main_v0 main_v1 ((transpose S16x16x64x64x4x4 [0, 3, 1, 4, 2, 5] · transposes_S16x64x4x16x64x4_S16x16x64x64x4x4_0_3_1_4_2_5) : (⟨S16x64x4x16x64x4, .f32⟩ : BufTy).Contents (Elt F) → (⟨S16x16x64x64x4x4, .f32⟩ : BufTy).Contents (Elt F)),
    reshape main_v1 main_v2 rfl shapeCasts_S16x16x64x64x4x4_S256x4096x16,
    binary main_v2 main_arg1 main_v3 ((fun l r => Host.dotGeneral dot_S256x4096x16_S256x16x96_S256x4096x96_2_1_1_2_0_0 none l r) : (⟨S256x4096x16, .f32⟩ : BufTy).Contents (Elt F) → (⟨S256x16x96, .f32⟩ : BufTy).Contents (Elt F) → (⟨S256x4096x96, .f32⟩ : BufTy).Contents (Elt F)),
    reshape main_v3 main_v4 rfl shapeCasts_S256x4096x96_S256x64x64x96,
    unary main_arg2 main_v5 (broadcastInDim S256x1x1x96 ![0, 3] bcast_S256x96_S256x1x1x96_0_3 : (⟨S256x96, .f32⟩ : BufTy).Contents (Elt F) → (⟨S256x1x1x96, .f32⟩ : BufTy).Contents (Elt F)),
    unary main_v5 main_v6 (broadcastInDim S256x64x64x96 ![0, 1, 2, 3] bcast_S256x1x1x96_S256x64x64x96_0_1_2_3 : (⟨S256x1x1x96, .f32⟩ : BufTy).Contents (Elt F) → (⟨S256x64x64x96, .f32⟩ : BufTy).Contents (Elt F)),
    binary main_v4 main_v6 main_v7 (addf : (⟨S256x64x64x96, .f32⟩ : BufTy).Contents (Elt F) → (⟨S256x64x64x96, .f32⟩ : BufTy).Contents (Elt F) → (⟨S256x64x64x96, .f32⟩ : BufTy).Contents (Elt F)),
    unary main_arg3 main_v8 (broadcastInDim S256x64x1x8 ![0, 1, 3] bcast_S256x64x8_S256x64x1x8_0_1_3 : (⟨S256x64x8, .f32⟩ : BufTy).Contents (Elt F) → (⟨S256x64x1x8, .f32⟩ : BufTy).Contents (Elt F)),
    nullary main_c (constantI S_ 32 0#32),
    unary main_c main_v9 (broadcastInDim S1 ![] bcast_S_S1 : (⟨S_, .i32⟩ : BufTy).Contents (Elt F) → (⟨S1, .i32⟩ : BufTy).Contents (Elt F)),
    unary main_v8 main_v10 (broadcastInDim S256x64x64x8 ![0, 1, 2, 3] bcast_S256x64x1x8_S256x64x64x8_0_1_2_3 : (⟨S256x64x1x8, .f32⟩ : BufTy).Contents (Elt F) → (⟨S256x64x64x8, .f32⟩ : BufTy).Contents (Elt F)),
    ternary main_v7 main_v9 main_v10 main_v11 ((fun x i u => Host.scatter scatter_S256x64x64x96_S1_S256x64x64x8_0123_n_3_0 FloatOps.addf x i u) : (⟨S256x64x64x96, .f32⟩ : BufTy).Contents (Elt F) → (⟨S1, .i32⟩ : BufTy).Contents (Elt F) → (⟨S256x64x64x8, .f32⟩ : BufTy).Contents (Elt F) → (⟨S256x64x64x96, .f32⟩ : BufTy).Contents (Elt F)),
    unary main_arg4 main_v12 (broadcastInDim S256x1x64x8 ![0, 2, 3] bcast_S256x64x8_S256x1x64x8_0_2_3 : (⟨S256x64x8, .f32⟩ : BufTy).Contents (Elt F) → (⟨S256x1x64x8, .f32⟩ : BufTy).Contents (Elt F)),
    nullary main_c_0 (constantI S_ 32 8#32),
    unary main_c_0 main_v13 (broadcastInDim S1 ![] bcast_S_S1 : (⟨S_, .i32⟩ : BufTy).Contents (Elt F) → (⟨S1, .i32⟩ : BufTy).Contents (Elt F)),
    unary main_v12 main_v14 (broadcastInDim S256x64x64x8 ![0, 1, 2, 3] bcast_S256x1x64x8_S256x64x64x8_0_1_2_3 : (⟨S256x1x64x8, .f32⟩ : BufTy).Contents (Elt F) → (⟨S256x64x64x8, .f32⟩ : BufTy).Contents (Elt F)),
    ternary main_v11 main_v13 main_v14 main_v15 ((fun x i u => Host.scatter scatter_S256x64x64x96_S1_S256x64x64x8_0123_n_3_0 FloatOps.addf x i u) : (⟨S256x64x64x96, .f32⟩ : BufTy).Contents (Elt F) → (⟨S1, .i32⟩ : BufTy).Contents (Elt F) → (⟨S256x64x64x8, .f32⟩ : BufTy).Contents (Elt F) → (⟨S256x64x64x96, .f32⟩ : BufTy).Contents (Elt F)) ]

/-- The second stretch: the activation's fifteen operations over the call's buffers. -/
abbrev ops₂ : List (HloOp τ sig (Elt F)) :=
  [ TRef.nullary main_call0.cst (constant S_ .f32 0x00000000#32),
    TRef.unary main_call0.cst main_call0.v0 (broadcastInDim S256x64x64x96 ![] bcast_S_S256x64x64x96),
    TRef.binary (.of main_v15) main_call0.v0 main_call0.v1 (cmpf .ogt),
    TRef.nullary main_call0.cst_0 (constant S_ .f32 0x00000000#32),
    TRef.unary main_call0.cst_0 main_call0.v2 (broadcastInDim S256x64x64x96 ![] bcast_S_S256x64x64x96),
    TRef.binary (.of main_v15) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S256x64x64x96 ![] bcast_S_S256x64x64x96),
    TRef.ternary main_call0.v3 main_call0.call0.v1 (.of main_v15) main_call0.call0.v2 select,
    TRef.unary main_call0.call0.v2 main_call0.v5 Host.expm1,
    TRef.nullary main_call0.cst_2 (constant S_ .f32 0x3F800000#32),
    TRef.unary main_call0.cst_2 main_call0.v6 (broadcastInDim S256x64x64x96 ![] bcast_S_S256x64x64x96),
    TRef.binary main_call0.v6 main_call0.v5 main_call0.v7 mulf,
    TRef.ternary main_call0.v1 (.of main_v15) main_call0.v7 main_call0.call1.v0 select ]

/-- The third stretch: the second layer, its bias, the scaled tile, and the tiles laid back. -/
abbrev ops₃ : List (HloOp τ sig (Elt F)) :=
  [ reshape main_v16 main_v17 rfl shapeCasts_S256x64x64x96_S256x4096x96,
    binary main_v17 main_arg5 main_v18 ((fun l r => Host.dotGeneral dot_S256x4096x96_S256x96x16_S256x4096x16_2_1_1_2_0_0 none l r) : (⟨S256x4096x96, .f32⟩ : BufTy).Contents (Elt F) → (⟨S256x96x16, .f32⟩ : BufTy).Contents (Elt F) → (⟨S256x4096x16, .f32⟩ : BufTy).Contents (Elt F)),
    unary main_arg6 main_v19 (broadcastInDim S256x1x16 ![0, 2] bcast_S256x16_S256x1x16_0_2 : (⟨S256x16, .f32⟩ : BufTy).Contents (Elt F) → (⟨S256x1x16, .f32⟩ : BufTy).Contents (Elt F)),
    unary main_v19 main_v20 (broadcastInDim S256x4096x16 ![0, 1, 2] bcast_S256x1x16_S256x4096x16_0_1_2 : (⟨S256x1x16, .f32⟩ : BufTy).Contents (Elt F) → (⟨S256x4096x16, .f32⟩ : BufTy).Contents (Elt F)),
    binary main_v18 main_v20 main_v21 (addf : (⟨S256x4096x16, .f32⟩ : BufTy).Contents (Elt F) → (⟨S256x4096x16, .f32⟩ : BufTy).Contents (Elt F) → (⟨S256x4096x16, .f32⟩ : BufTy).Contents (Elt F)),
    unary main_arg7 main_v22 (broadcastInDim S256x1x16 ![0, 2] bcast_S256x16_S256x1x16_0_2 : (⟨S256x16, .f32⟩ : BufTy).Contents (Elt F) → (⟨S256x1x16, .f32⟩ : BufTy).Contents (Elt F)),
    unary main_v22 main_v23 (broadcastInDim S256x4096x16 ![0, 1, 2] bcast_S256x1x16_S256x4096x16_0_1_2 : (⟨S256x1x16, .f32⟩ : BufTy).Contents (Elt F) → (⟨S256x4096x16, .f32⟩ : BufTy).Contents (Elt F)),
    binary main_v2 main_v23 main_v24 (mulf : (⟨S256x4096x16, .f32⟩ : BufTy).Contents (Elt F) → (⟨S256x4096x16, .f32⟩ : BufTy).Contents (Elt F) → (⟨S256x4096x16, .f32⟩ : BufTy).Contents (Elt F)),
    binary main_v21 main_v24 main_v25 (addf : (⟨S256x4096x16, .f32⟩ : BufTy).Contents (Elt F) → (⟨S256x4096x16, .f32⟩ : BufTy).Contents (Elt F) → (⟨S256x4096x16, .f32⟩ : BufTy).Contents (Elt F)),
    reshape main_v25 main_v26 rfl shapeCasts_S256x4096x16_S16x16x64x64x4x4,
    unary main_v26 main_v27 ((transpose S16x64x4x16x64x4 [0, 2, 4, 1, 3, 5] · transposes_S16x16x64x64x4x4_S16x64x4x16x64x4_0_2_4_1_3_5) : (⟨S16x16x64x64x4x4, .f32⟩ : BufTy).Contents (Elt F) → (⟨S16x64x4x16x64x4, .f32⟩ : BufTy).Contents (Elt F)),
    reshape main_v27 main_v28 rfl shapeCasts_S16x64x4x16x64x4_S4096x4096 ]

theorem ops_eq : (ops : List (HloOp τ sig (Elt F))) = ops₁ ++ (ops₂ ++ ops₃) := rfl

/-! ### The first stretch, from any contents -/

theorem s1_tiles (V : Valuation τ sig (Elt F)) :
    after ops₁ V (main_v2 : DevRef τ sig) = Term.tilesR (V (main_arg0 : DevRef τ sig)) := by
  after_results_simp
  rfl

theorem s1_pos (V : Valuation τ sig (Elt F)) :
    after ops₁ V (main_v15 : DevRef τ sig)
      = Term.posR (Term.linR (Term.tilesR (V (main_arg0 : DevRef τ sig))) (V (main_arg1 : DevRef τ sig)) (V (main_arg2 : DevRef τ sig)))
          (V (main_arg3 : DevRef τ sig)) (V (main_arg4 : DevRef τ sig)) := by
  after_results_simp
  rfl

theorem s1_main_arg5 (V : Valuation τ sig (Elt F)) :
    after ops₁ V (main_arg5 : DevRef τ sig) = V (main_arg5 : DevRef τ sig) := by
  after_results_simp

theorem s1_main_arg6 (V : Valuation τ sig (Elt F)) :
    after ops₁ V (main_arg6 : DevRef τ sig) = V (main_arg6 : DevRef τ sig) := by
  after_results_simp

theorem s1_main_arg7 (V : Valuation τ sig (Elt F)) :
    after ops₁ V (main_arg7 : DevRef τ sig) = V (main_arg7 : DevRef τ sig) := by
  after_results_simp

/-! ### The activation, from any contents: the typed references' transports are the identity at these literal
    references, and what is left is `eluR` of whatever `main_v15` held -/

theorem s2_elu (W : Valuation τ sig (Elt F)) :
    after ops₂ W (main_v16 : DevRef τ sig) = Term.eluR (W (main_v15 : DevRef τ sig)) := by
  after_results_simp
  rfl

theorem s2_main_v2 (W : Valuation τ sig (Elt F)) :
    after ops₂ W (main_v2 : DevRef τ sig) = W (main_v2 : DevRef τ sig) := by
  after_results_simp

theorem s2_main_arg5 (W : Valuation τ sig (Elt F)) :
    after ops₂ W (main_arg5 : DevRef τ sig) = W (main_arg5 : DevRef τ sig) := by
  after_results_simp

theorem s2_main_arg6 (W : Valuation τ sig (Elt F)) :
    after ops₂ W (main_arg6 : DevRef τ sig) = W (main_arg6 : DevRef τ sig) := by
  after_results_simp

theorem s2_main_arg7 (W : Valuation τ sig (Elt F)) :
    after ops₂ W (main_arg7 : DevRef τ sig) = W (main_arg7 : DevRef τ sig) := by
  after_results_simp

/-! ### The last stretch, from any contents -/

theorem s3_out (W : Valuation τ sig (Elt F)) :
    after ops₃ W (main_v28 : DevRef τ sig)
      = Term.tailR
          (addf
            (addf
              (Host.dotGeneral dot_S256x4096x96_S256x96x16_S256x4096x16_2_1_1_2_0_0 none
                (shapeCast S256x4096x96 (W (main_v16 : DevRef τ sig)) shapeCasts_S256x64x64x96_S256x4096x96) (W (main_arg5 : DevRef τ sig)))
              (broadcastInDim S256x4096x16 ![0, 1, 2] bcast_S256x1x16_S256x4096x16_0_1_2
                (broadcastInDim S256x1x16 ![0, 2] bcast_S256x16_S256x1x16_0_2 (W (main_arg6 : DevRef τ sig)))))
            (mulf (W (main_v2 : DevRef τ sig))
              (broadcastInDim S256x4096x16 ![0, 1, 2] bcast_S256x1x16_S256x4096x16_0_1_2
                (broadcastInDim S256x1x16 ![0, 2] bcast_S256x16_S256x1x16_0_2 (W (main_arg7 : DevRef τ sig)))))) := by
  after_results_simp
  rfl

/-- The fold at the result buffer is the staged term: the three stretches in turn, each read at the buffers the next
    one uses. -/
theorem out_eq (V : Valuation τ sig (Elt F)) :
    after ops V (main_v28 : DevRef τ sig)
      = Term.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_eq, after_append, after_append, s3_out, s2_elu, s2_main_v2, s2_main_arg5, s2_main_arg6, s2_main_arg7,
    s1_pos, s1_tiles, s1_main_arg5, s1_main_arg6, s1_main_arg7]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

/-- On the device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = Term.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v28).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.HandRun

end
-- ==== Proof.BridgeLayout.lean ====
/-
  The two programs lay the matrix out in tiles the same way: the reference merges a block's tile row and column into
  one axis (tile 64 r + c), the kernel keeps them apart; both are re-castings of one array, so entries at the same
  row-major position agree, going in and coming out.
-/
import proofs.«156347_j26594437497233_1_alg».proof.Proof.KTerm
import proofs.«156347_j26594437497233_1_alg».proof.Proof.RefTerm
import proofs.«156347_j26594437497233_1_alg».proof.Proof.Spec
import Idealize.ShloMosaic.Lib.Pipeline.Value

noncomputable section

namespace Cert.Bridge

open Idealize.ShloMosaic Idealize.ShloMosaic.ValueIdx Cert.Tiles

variable {α : Type}

/-- Two re-castings of one array agree at indices with the same row-major position. -/
theorem shapeCast_eq_shapeCast {s t t' : Shape} (W : s.Idx → α) (h : s.ShapeCasts t) (h' : s.ShapeCasts t')
    (j : t.Idx) (j' : t'.Idx) (e : (t.rowMajor j).val = (t'.rowMajor j').val) :
    shapeCast t W h j = shapeCast t' W h' j' := by
  refine shapeCast_apply W h j (Shape.reshapeEquiv h' j') ?_
  rw [Shape.rowMajor_reshapeEquiv]
  exact e.symm

/-- Arrays over (block, tile, entry) and (block, tile row, tile column, entry) that agree entry by entry have the same
    re-casting to any third shape. -/
theorem shapeCast_merged_eq {s6 : Shape} (Y3 : SX3.Idx → α) (Y4 : SX.Idx → α)
    (hY : ∀ (b : Fin 256) (r c : Fin 64) (o : Fin 16), Y3 (ix3 b (tile r c) o) = Y4 (ix4 b r c o))
    (h3 : SX3.ShapeCasts s6) (h4 : SX.ShapeCasts s6) : shapeCast s6 Y3 h3 = shapeCast s6 Y4 h4 := by
  funext j
  show Y3 (Shape.reshapeEquiv h3 j) = Y4 (Shape.reshapeEquiv h4 j)
  obtain ⟨b, t, o, hj⟩ : ∃ (b : Fin 256) (t : Fin 4096) (o : Fin 16), Shape.reshapeEquiv h3 j = ix3 b t o :=
    ⟨_, _, _, eq_ix3 _⟩
  have hr : t.val / 64 < 64 := by have := t.isLt; omega
  have hc : t.val % 64 < 64 := Nat.mod_lt _ (by decide)
  have ht : t = tile ⟨t.val / 64, hr⟩ ⟨t.val % 64, hc⟩ := Fin.ext (by show t.val = t.val / 64 * 64 + t.val % 64; omega)
  have hpos := Shape.rowMajor_reshapeEquiv h3 j
  rw [hj] at hpos ⊢
  rw [ht, hY]
  congr 1
  symm
  apply Shape.reshapeEquiv_eq_of_rowMajor
  rw [← hpos, Shape.rowMajor_val_three, Shape.rowMajor_val_four]
  show ((b.val * 64 + t.val / 64) * 64 + t.val % 64) * 16 + o.val = (b.val * 4096 + t.val) * 16 + o.val
  omega

/-- Cutting the matrix into tiles: the reference's tile 64 r + c of a block is the kernel's tile (r, c). -/
theorem tiles_eq (a0 : FVec Ideal Cert.KernelIdeal.S4096x4096 .f32) (b : Fin 256) (r c : Fin 64) (k : Fin 16) :
    Cert.ReferenceIdeal.Term.tilesR a0 (ix3 b (tile r c) k) = Cert.KernelIdeal.Term.tilesK a0 (ix4 b r c k) := by
  unfold Cert.ReferenceIdeal.Term.tilesR Cert.KernelIdeal.Term.tilesK
  refine shapeCast_eq_shapeCast _ _ _ _ _ ?_
  rw [Shape.rowMajor_val_three, Shape.rowMajor_val_four]
  show (b.val * 4096 + (r.val * 64 + c.val)) * 16 + k.val = ((b.val * 64 + r.val) * 64 + c.val) * 16 + k.val
  omega

/-- Laying the tiles back into the matrix: arrays that agree tile by tile give the same matrix. -/
theorem tails_eq (Y3 : FVec Ideal Cert.ReferenceIdeal.S256x4096x16 .f32) (Y4 : FVec Ideal Cert.KernelIdeal.S256x64x64x16 .f32)
    (hY : ∀ (b : Fin 256) (r c : Fin 64) (o : Fin 16), Y3 (ix3 b (tile r c) o) = Y4 (ix4 b r c o)) :
    Cert.ReferenceIdeal.Term.tailR Y3 = Cert.KernelIdeal.Term.tailK Y4 := by
  unfold Cert.ReferenceIdeal.Term.tailR Cert.KernelIdeal.Term.tailK
  rw [shapeCast_merged_eq Y3 Y4 hY]

end Cert.Bridge

end
-- ==== Proof.RefValueLin.lean ====
/-
  The reference's first linear layer read at an index: the tile at (r, c) of block b against the block's first weight
  matrix, plus the block's bias.
-/
import Idealize.ShloMosaic.Lib.Pipeline.Value
import Idealize.ShloMosaic.Lib.ValueIdx
import Idealize.ShloMosaic.PureOps.Ideal.Laws
import Idealize.ShloMosaic.Lib.IdealHost
import proofs.«156347_j26594437497233_1_alg».proof.Proof.Spec
import proofs.«156347_j26594437497233_1_alg».proof.Proof.RefTerm
import proofs.«156347_j26594437497233_1_alg».proof.Proof.LibBatchedDot

noncomputable section

namespace Cert.ReferenceIdeal.HandValue

open Idealize.ShloMosaic Idealize.ShloMosaic.ValueIdx Cert.ReferenceIdeal Cert.ReferenceIdeal.Term
open Cert.ReferenceIdeal.Facts₀

open Cert.Tiles (tile)

/-- The hidden layer's (block, tile row, tile column, unit) and (block, tile, unit) readings sit at the same row-major
    position. -/
theorem hidden_pos (b : Fin 256) (r c : Fin 64) (h : Fin 96) :
    (S256x4096x96.rowMajor (ix3 b (tile r c) h)).val = (S256x64x64x96.rowMajor (ix4 b r c h)).val := by
  rw [Shape.rowMajor_val_three, Shape.rowMajor_val_four]
  show (b.val * 4096 + (r.val * 64 + c.val)) * 96 + h.val = ((b.val * 64 + r.val) * 64 + c.val) * 96 + h.val
  omega

/-- The first bias broadcast over tile rows and columns reads the bias of the block and unit. -/
theorem bias1_apply (a2 : FVec Ideal S256x96 .f32) (b : Fin 256) (r c : Fin 64) (h : Fin 96) :
    broadcastInDim S256x64x64x96 ![0, 1, 2, 3] bcast_S256x1x1x96_S256x64x64x96_0_1_2_3
      (broadcastInDim S256x1x1x96 ![0, 3] bcast_S256x96_S256x1x1x96_0_3 a2) (ix4 b r c h) = a2 (ix2 b h) := by
  refine (broadcastInDim_apply _ _ _ (ix4 b r c h) (ix4 b (0 : Fin 1) (0 : Fin 1) h) ?_).trans ?_
  · intro a
    match a with
    | ⟨0, _⟩ => rfl
    | ⟨1, _⟩ => rfl
    | ⟨2, _⟩ => rfl
    | ⟨3, _⟩ => rfl
  · refine broadcastInDim_apply _ _ _ _ (ix2 b h) ?_
    intro a
    match a with
    | ⟨0, _⟩ => rfl
    | ⟨1, _⟩ => rfl

/-- The first linear layer at (b, r, c, h): the tile against column h of the block's weights, plus the bias. -/
theorem linR_apply (X : FVec Ideal S256x4096x16 .f32) (a1 : FVec Ideal S256x16x96 .f32) (a2 : FVec Ideal S256x96 .f32)
    (b : Fin 256) (r c : Fin 64) (h : Fin 96) :
    linR X a1 a2 (ix4 b r c h) = (∑ k : Fin 16, X (ix3 b (tile r c) k) * a1 (ix3 b k h)) + a2 (ix2 b h) := by
  unfold linR
  rw [addf_apply, bias1_apply, shapeCast_apply _ _ (ix4 b r c h) (ix3 b (tile r c) h) (hidden_pos b r c h)]
  simp only [Host.dotGeneral]
  rw [Ideal.dotGeneral_apply]
  rw [Cert.LibBatchedDot.sum_eq _ rfl rfl rfl rfl rfl rfl]

end Cert.ReferenceIdeal.HandValue

end
-- ==== Proof.LibScatter.lean ====
/-
  A `stablehlo.scatter` (`Host.scatter`) read at one index of its result.

  The scatter is a left fold over the update positions: position `j` replaces the element at its result index (when it
  has one) by the body applied to that element and the update's. Read at a result index `i`:
  * when no update position lands on `i`, the operand's element is kept (`scatter_apply_miss`);
  * when exactly one update position `j` lands on `i`, the result is the body applied to the operand's element and the
    update at `j` (`scatter_apply_hit`).
  Both follow from the same two facts about the fold over an arbitrary list of positions (`foldl_miss`, `foldl_hit`).
  Last, a scatter whose every update position `j` lands on `φ j` for an injective `φ` (`scatter_apply_of_injective`).
-/
import Idealize.ShloMosaic.PureOps.ShapeOps

namespace Cert.LibScatter

open Idealize.ShloMosaic

variable {α : Type} {s si u : Shape} {w : Nat}

/-- One step of the scatter's fold: update position `n` replaces the element at its result index, if it has one. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

/-- The scatter is the fold of `step` over all update positions. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose position does not land on `i` leaves the element at `i` alone. -/
theorem step_of_ne (d : ScatterDims s si u) (f : α → α → α) (idx : IVec si w) (upd : u.Idx → α) (r : s.Idx → α)
    (n : Fin u.numel) (i : s.Idx) (h : d.resultIdx? (u.rowMajor.symm n) idx ≠ some i) :
    step d f idx upd r n i = r i := by
  unfold step
  cases hq : d.resultIdx? (u.rowMajor.symm n) idx with
  | none => rfl
  | some k =>
    have hne : i ≠ k := fun e => h (by rw [hq, e])
    simp only [if_neg hne]

/-- A step whose position lands on `i` applies the body there. -/
theorem step_of_eq (d : ScatterDims s si u) (f : α → α → α) (idx : IVec si w) (upd : u.Idx → α) (r : s.Idx → α)
    (n : Fin u.numel) (i : s.Idx) (h : d.resultIdx? (u.rowMajor.symm n) idx = some i) :
    step d f idx upd r n i = f (r i) (upd (u.rowMajor.symm n)) := by
  unfold step
  rw [h]
  simp only [if_true]

/-- Folding the steps of a list of positions none of which lands on `i` leaves the element at `i` alone. -/
theorem foldl_miss (d : ScatterDims s si u) (f : α → α → α) (idx : IVec si w) (upd : u.Idx → α) (i : s.Idx) (l : List (Fin u.numel)) :
    ∀ (r : s.Idx → α), (∀ n ∈ l, d.resultIdx? (u.rowMajor.symm n) idx ≠ some i) →
      l.foldl (step d f idx upd) r i = r i := by
  induction l with
  | nil => intro r _; rfl
  | cons a l ih =>
    intro r h
    rw [List.foldl_cons, ih _ (fun n hn => h n (List.mem_cons_of_mem a hn)),
      step_of_ne d f idx upd r a i (h a List.mem_cons_self)]

/-- Folding the steps of a list of positions without repeats in which `n`, and no other position, lands on `i`
    applies the body once at `i`, to the starting element and the update at `n`. -/
theorem foldl_hit (d : ScatterDims s si u) (f : α → α → α) (idx : IVec si w) (upd : u.Idx → α) (i : s.Idx) (n : Fin u.numel)
    (hn : d.resultIdx? (u.rowMajor.symm n) idx = some i) (l : List (Fin u.numel)) :
    ∀ (r : s.Idx → α), l.Nodup → n ∈ l → (∀ m ∈ l, m ≠ n → d.resultIdx? (u.rowMajor.symm m) idx ≠ some i) →
      l.foldl (step d f idx upd) r i = f (r i) (upd (u.rowMajor.symm n)) := by
  induction l with
  | nil => intro r _ hmem; exact absurd hmem List.not_mem_nil
  | cons a l ih =>
    intro r hnd hmem hother
    rw [List.foldl_cons]
    have hnd' := List.nodup_cons.1 hnd
    by_cases ha : a = n
    · subst ha
      rw [foldl_miss d f idx upd i l _ (fun m hm =>
          hother m (List.mem_cons_of_mem a hm) (fun e => hnd'.1 (e ▸ hm))),
        step_of_eq d f idx upd r a i hn]
    · have hmem' : n ∈ l := by
        rcases List.mem_cons.1 hmem with e | e
        · exact absurd e.symm ha
        · exact e
      rw [ih _ hnd'.2 hmem' (fun m hm => hother m (List.mem_cons_of_mem a hm)),
        step_of_ne d f idx upd r a i (hother a List.mem_cons_self ha)]

/-- A scatter read at an index no update position lands on: the operand's element. -/
theorem scatter_apply_miss (d : ScatterDims s si u) (f : α → α → α) (x : s.Idx → α) (idx : IVec si w) (upd : u.Idx → α) (i : s.Idx)
    (h : ∀ j : u.Idx, d.resultIdx? j idx ≠ some i) :
    Host.scatter d f x idx upd i = x i := by
  rw [scatter_eq_foldl]
  exact foldl_miss d f idx upd i _ x (fun n _ => h _)

/-- A scatter read at an index exactly one update position `j` lands on: the body applied to the operand's element and
    the update at `j`. -/
theorem scatter_apply_hit (d : ScatterDims s si u) (f : α → α → α) (x : s.Idx → α) (idx : IVec si w) (upd : u.Idx → α) (i : s.Idx)
    (j : u.Idx) (hj : d.resultIdx? j idx = some i) (huniq : ∀ j' : u.Idx, d.resultIdx? j' idx = some i → j' = j) :
    Host.scatter d f x idx upd i = f (x i) (upd j) := by
  rw [scatter_eq_foldl]
  have hj' : d.resultIdx? (u.rowMajor.symm (u.rowMajor j)) idx = some i := by rw [Equiv.symm_apply_apply]; exact hj
  have := foldl_hit d f idx upd i (u.rowMajor j) hj' (List.finRange u.numel) x (List.nodup_finRange _) (List.mem_finRange _)
    (fun m _ hne hm => hne (by rw [← huniq _ hm, Equiv.apply_symm_apply]))
  rw [this, Equiv.symm_apply_apply]

/-- A scatter whose every update position `j` lands on `φ j`, `φ` injective, read at `φ j`: the body applied to
    the operand's element and the update at `j`. -/
theorem scatter_apply_of_injective (d : ScatterDims s si u) (f : α → α → α) (x : s.Idx → α) (idx : IVec si w) (upd : u.Idx → α)
    (φ : u.Idx → s.Idx) (hφ : ∀ j, d.resultIdx? j idx = some (φ j)) (hinj : Function.Injective φ) (j : u.Idx) :
    Host.scatter d f x idx upd (φ j) = f (x (φ j)) (upd j) :=
  scatter_apply_hit d f x idx upd (φ j) j (hφ j) (fun j' h => hinj (Option.some.inj ((hφ j').symm.trans h)))

/-- A scatter whose every update position `j` lands on `φ j`, read at an index outside `φ`'s range: the operand's element. -/
theorem scatter_apply_of_not_range (d : ScatterDims s si u) (f : α → α → α) (x : s.Idx → α) (idx : IVec si w) (upd : u.Idx → α)
    (φ : u.Idx → s.Idx) (hφ : ∀ j, d.resultIdx? j idx = some (φ j)) (i : s.Idx) (hi : ∀ j, φ j ≠ i) :
    Host.scatter d f x idx upd i = x i :=
  scatter_apply_miss d f x idx upd i (fun j h => hi j (Option.some.inj ((hφ j).symm.trans h)))

end Cert.LibScatter
-- ==== Proof.RefScatter.lean ====
/-
  The reference's two scattered additions read at an index: an eight-wide band of the last axis takes the update, the
  rest of the operand is kept.
-/
import proofs.«156347_j26594437497233_1_alg».proof.Proof.Gen.ReferenceIdeal
import proofs.«156347_j26594437497233_1_alg».proof.Proof.LibScatter
import Idealize.ShloMosaic.Lib.ValueIdx

noncomputable section

namespace Cert.ReferenceIdeal.Scatter

open Idealize.ShloMosaic Idealize.ShloMosaic.ValueIdx Cert.ReferenceIdeal
open Cert.ReferenceIdeal.Facts₀

/-- The scatter indices: one index vector of one component, the literal `off`. -/
abbrev idxAt (off : BitVec 32) : IVec S1 32 := broadcastInDim S1 ![] bcast_S_S1 (constantI S_ 32 off)

/-- The window's start: `off` (read signed) on the last axis, `0` on the three others. -/
theorem start_eq (off : BitVec 32) (j : S256x64x64x8.Idx) :
    scatter_S256x64x64x96_S1_S256x64x64x8_0123_n_3_0.start j (idxAt off) ⟨0, by decide⟩ = 0 ∧
    scatter_S256x64x64x96_S1_S256x64x64x8_0123_n_3_0.start j (idxAt off) ⟨1, by decide⟩ = 0 ∧
    scatter_S256x64x64x96_S1_S256x64x64x8_0123_n_3_0.start j (idxAt off) ⟨2, by decide⟩ = 0 ∧
    scatter_S256x64x64x96_S1_S256x64x64x8_0123_n_3_0.start j (idxAt off) ⟨3, by decide⟩ = off.toInt :=
  ⟨rfl, rfl, rfl, rfl⟩

/-- The window coordinate on each operand axis is the update index's coordinate on the same axis. -/
theorem window_eq (b : Fin 256) (r c : Fin 64) (o : Fin 8) :
    scatter_S256x64x64x96_S1_S256x64x64x8_0123_n_3_0.window (ix4 b r c o) ⟨0, by decide⟩ = b.val ∧
    scatter_S256x64x64x96_S1_S256x64x64x8_0123_n_3_0.window (ix4 b r c o) ⟨1, by decide⟩ = r.val ∧
    scatter_S256x64x64x96_S1_S256x64x64x8_0123_n_3_0.window (ix4 b r c o) ⟨2, by decide⟩ = c.val ∧
    scatter_S256x64x64x96_S1_S256x64x64x8_0123_n_3_0.window (ix4 b r c o) ⟨3, by decide⟩ = o.val :=
  ⟨rfl, rfl, rfl, rfl⟩

/-- Every update position lands inside the operand: at its own coordinates, moved by `n` (the start) on the last axis. -/
theorem resultIdx_eq (off : BitVec 32) (n : Nat) (hoff : off.toInt = (n : Int)) (hn : n ≤ 88)
    (b : Fin 256) (r c : Fin 64) (o : Fin 8) :
    scatter_S256x64x64x96_S1_S256x64x64x8_0123_n_3_0.resultIdx? (ix4 b r c o) (idxAt off)
      = some (ix4 b r c (⟨o.val + n, by omega⟩ : Fin 96)) := by
  obtain ⟨s0, s1, s2, s3⟩ := start_eq off (ix4 b r c o)
  obtain ⟨w0, w1, w2, w3⟩ := window_eq b r c o
  have hs : ∀ a : Fin 4,
      scatter_S256x64x64x96_S1_S256x64x64x8_0123_n_3_0.start (ix4 b r c o) (idxAt off) a
        + (scatter_S256x64x64x96_S1_S256x64x64x8_0123_n_3_0.window (ix4 b r c o) a : Int)
      = (((ix4 b r c (⟨o.val + n, by omega⟩ : Fin 96) : S256x64x64x96.Idx) a).val : Int) := by
    intro a
    match a with
    | ⟨0, _⟩ => rw [s0, w0]; exact Int.zero_add _
    | ⟨1, _⟩ => rw [s1, w1]; exact Int.zero_add _
    | ⟨2, _⟩ => rw [s2, w2]; exact Int.zero_add _
    | ⟨3, _⟩ => rw [s3, w3, hoff]; show (n : Int) + (o.val : Int) = ((o.val + n : Nat) : Int); omega
  unfold ScatterDims.resultIdx?
  rw [dif_pos (fun a => by
    rw [hs a]
    exact ⟨Int.natCast_nonneg _, Int.ofNat_lt.2 ((ix4 b r c (⟨o.val + n, by omega⟩ : Fin 96) : S256x64x64x96.Idx) a).isLt⟩)]
  refine congrArg some (funext fun a => Fin.ext ?_)
  show (scatter_S256x64x64x96_S1_S256x64x64x8_0123_n_3_0.start (ix4 b r c o) (idxAt off) a
        + (scatter_S256x64x64x96_S1_S256x64x64x8_0123_n_3_0.window (ix4 b r c o) a : Int)).toNat = _
  rw [hs a]
  exact Int.toNat_natCast _

/-- The scatter with start `n` on the last axis: the eight units from `n` on take the update. -/
theorem scatter_band (off : BitVec 32) (n : Nat) (hoff : off.toInt = (n : Int)) (hn : n ≤ 88)
    (x : FVec Ideal S256x64x64x96 .f32) (u : FVec Ideal S256x64x64x8 .f32) (b : Fin 256) (r c : Fin 64) (h : Fin 96) :
    Host.scatter scatter_S256x64x64x96_S1_S256x64x64x8_0123_n_3_0 FloatOps.addf x (idxAt off) u (ix4 b r c h)
      = if hh : n ≤ h.val ∧ h.val < n + 8 then x (ix4 b r c h) + u (ix4 b r c ⟨h.val - n, by omega⟩) else x (ix4 b r c h) := by
  by_cases hh : n ≤ h.val ∧ h.val < n + 8
  · rw [dif_pos hh]
    have hj := resultIdx_eq off n hoff hn b r c (⟨h.val - n, by omega⟩ : Fin 8)
    have he : (⟨(⟨h.val - n, by omega⟩ : Fin 8).val + n, by omega⟩ : Fin 96) = h := Fin.ext (by show h.val - n + n = h.val; omega)
    rw [he] at hj
    refine Cert.LibScatter.scatter_apply_hit _ _ x _ u _ _ hj ?_
    intro j' hj'
    obtain ⟨b', r', c', o', rfl⟩ : ∃ b' r' c' o', j' = ix4 b' r' c' o' := ⟨j' 0, j' 1, j' 2, j' 3, eq_ix4 j'⟩
    rw [resultIdx_eq off n hoff hn b' r' c' o'] at hj'
    have e := Option.some.inj hj'
    have e0 : b' = b := congrFun e 0
    have e1 : r' = r := congrFun e 1
    have e2 : c' = c := congrFun e 2
    have e3 : o'.val + n = h.val := congrArg Fin.val (congrFun e 3)
    subst e0; subst e1; subst e2
    have : o' = (⟨h.val - n, by omega⟩ : Fin 8) := Fin.ext (by show o'.val = h.val - n; omega)
    rw [this]
  · rw [dif_neg hh]
    refine Cert.LibScatter.scatter_apply_miss _ _ x _ u _ ?_
    intro j' hj'
    obtain ⟨b', r', c', o', rfl⟩ : ∃ b' r' c' o', j' = ix4 b' r' c' o' := ⟨j' 0, j' 1, j' 2, j' 3, eq_ix4 j'⟩
    rw [resultIdx_eq off n hoff hn b' r' c' o'] at hj'
    have e := Option.some.inj hj'
    have e3 : o'.val + n = h.val := congrArg Fin.val (congrFun e 3)
    exact hh ⟨by omega, by omega⟩

/-- The scatter at start 0 on the last axis: units 0–7 take the update. -/
theorem scatter_at0 (x : FVec Ideal S256x64x64x96 .f32) (u : FVec Ideal S256x64x64x8 .f32) (b : Fin 256) (r c : Fin 64) (h : Fin 96) :
    Host.scatter scatter_S256x64x64x96_S1_S256x64x64x8_0123_n_3_0 FloatOps.addf x
        (broadcastInDim S1 ![] bcast_S_S1 (constantI S_ 32 0#32)) u (ix4 b r c h)
      = if hh : h.val < 8 then x (ix4 b r c h) + u (ix4 b r c ⟨h.val, hh⟩) else x (ix4 b r c h) := by
  have := scatter_band 0#32 0 (by decide) (by omega) x u b r c h
  rw [show (broadcastInDim S1 ![] bcast_S_S1 (constantI S_ 32 0#32) : IVec S1 32) = idxAt 0#32 from rfl, this]
  by_cases hh : h.val < 8
  · rw [dif_pos hh, dif_pos ⟨Nat.zero_le _, by omega⟩] <;> rfl
  · rw [dif_neg hh, dif_neg (fun hc => hh (by omega))] <;> rfl

/-- The scatter at start 8 on the last axis: units 8–15 take the update. -/
theorem scatter_at8 (x : FVec Ideal S256x64x64x96 .f32) (u : FVec Ideal S256x64x64x8 .f32) (b : Fin 256) (r c : Fin 64) (h : Fin 96) :
    Host.scatter scatter_S256x64x64x96_S1_S256x64x64x8_0123_n_3_0 FloatOps.addf x
        (broadcastInDim S1 ![] bcast_S_S1 (constantI S_ 32 8#32)) u (ix4 b r c h)
      = if hh : 8 ≤ h.val ∧ h.val < 16 then x (ix4 b r c h) + u (ix4 b r c ⟨h.val - 8, by omega⟩) else x (ix4 b r c h) := by
  exact scatter_band 8#32 8 (by decide) (by omega) x u b r c h

end Cert.ReferenceIdeal.Scatter

end
-- ==== Proof.RefValuePos.lean ====
/-
  The reference's positional rows read at an index: units 0–7 take the tile row's positional row, units 8–15 the tile
  column's, the other units are kept.
-/
import Idealize.ShloMosaic.Lib.Pipeline.Value
import Idealize.ShloMosaic.Lib.ValueIdx
import Idealize.ShloMosaic.PureOps.Ideal.Laws
import Idealize.ShloMosaic.Lib.IdealHost
import proofs.«156347_j26594437497233_1_alg».proof.Proof.Spec
import proofs.«156347_j26594437497233_1_alg».proof.Proof.RefTerm
import proofs.«156347_j26594437497233_1_alg».proof.Proof.RefScatter

noncomputable section

namespace Cert.ReferenceIdeal.HandValue

open Idealize.ShloMosaic Idealize.ShloMosaic.ValueIdx Cert.ReferenceIdeal Cert.ReferenceIdeal.Term
open Cert.ReferenceIdeal.Facts₀

open Cert.Tiles (band)

/-- The row table broadcast along tile columns reads the row's entry. -/
theorem rowTable_apply (a3 : FVec Ideal S256x64x8 .f32) (b : Fin 256) (r c : Fin 64) (e : Fin 8) :
    broadcastInDim S256x64x64x8 ![0, 1, 2, 3] bcast_S256x64x1x8_S256x64x64x8_0_1_2_3
      (broadcastInDim S256x64x1x8 ![0, 1, 3] bcast_S256x64x8_S256x64x1x8_0_1_3 a3) (ix4 b r c e) = a3 (ix3 b r e) := by
  refine (broadcastInDim_apply _ _ _ (ix4 b r c e) (ix4 b r (0 : Fin 1) e) ?_).trans ?_
  · intro a
    match a with
    | ⟨0, _⟩ => rfl
    | ⟨1, _⟩ => rfl
    | ⟨2, _⟩ => rfl
    | ⟨3, _⟩ => rfl
  · refine broadcastInDim_apply _ _ _ _ (ix3 b r e) ?_
    intro a
    match a with
    | ⟨0, _⟩ => rfl
    | ⟨1, _⟩ => rfl
    | ⟨2, _⟩ => rfl

/-- The column table broadcast along tile rows reads the column's entry. -/
theorem colTable_apply (a4 : FVec Ideal S256x64x8 .f32) (b : Fin 256) (r c : Fin 64) (e : Fin 8) :
    broadcastInDim S256x64x64x8 ![0, 1, 2, 3] bcast_S256x1x64x8_S256x64x64x8_0_1_2_3
      (broadcastInDim S256x1x64x8 ![0, 2, 3] bcast_S256x64x8_S256x1x64x8_0_2_3 a4) (ix4 b r c e) = a4 (ix3 b c e) := by
  refine (broadcastInDim_apply _ _ _ (ix4 b r c e) (ix4 b (0 : Fin 1) c e) ?_).trans ?_
  · intro a
    match a with
    | ⟨0, _⟩ => rfl
    | ⟨1, _⟩ => rfl
    | ⟨2, _⟩ => rfl
    | ⟨3, _⟩ => rfl
  · refine broadcastInDim_apply _ _ _ _ (ix3 b c e) ?_
    intro a
    match a with
    | ⟨0, _⟩ => rfl
    | ⟨1, _⟩ => rfl
    | ⟨2, _⟩ => rfl

/-- The positional stage at (b, r, c, h). -/
theorem posR_apply (x : FVec Ideal S256x64x64x96 .f32) (a3 a4 : FVec Ideal S256x64x8 .f32)
    (b : Fin 256) (r c : Fin 64) (h : Fin 96) :
    posR x a3 a4 (ix4 b r c h)
      = if h.val < 8 then x (ix4 b r c h) + a3 (ix3 b r (band h))
        else if h.val < 16 then x (ix4 b r c h) + a4 (ix3 b c (band h))
        else x (ix4 b r c h) := by
  unfold posR
  rw [Scatter.scatter_at8, Scatter.scatter_at0]
  by_cases h8 : h.val < 8
  · have e : (⟨h.val, h8⟩ : Fin 8) = band h := Fin.ext (by show h.val = h.val % 8; omega)
    rw [dif_neg (by omega), dif_pos h8, if_pos h8, rowTable_apply, e]
  · by_cases h16 : h.val < 16
    · have hh : 8 ≤ h.val ∧ h.val < 16 := ⟨by omega, h16⟩
      have e : (⟨h.val - 8, by omega⟩ : Fin 8) = band h := Fin.ext (by show h.val - 8 = h.val % 8; omega)
      rw [dif_pos hh, dif_neg h8, if_neg h8, if_pos h16, colTable_apply, e]
    · rw [dif_neg (by omega), dif_neg h8, if_neg h8, if_neg h16]

end Cert.ReferenceIdeal.HandValue

end
-- ==== Proof.RefValueElu.lean ====
/-
  The reference's activation read at an index: where the entry is positive it is kept, elsewhere the reference
  computes 1 · expm1 of the entry, which is eˣ − 1.
-/
import Idealize.ShloMosaic.Lib.Pipeline.Value
import Idealize.ShloMosaic.Lib.ValueIdx
import Idealize.ShloMosaic.PureOps.Ideal.Laws
import Idealize.ShloMosaic.Lib.IdealHost
import proofs.«156347_j26594437497233_1_alg».proof.Proof.Spec
import proofs.«156347_j26594437497233_1_alg».proof.Proof.RefTerm

noncomputable section

namespace Cert.ReferenceIdeal.HandValue

open Idealize.ShloMosaic Idealize.ShloMosaic.ValueIdx Cert.ReferenceIdeal Cert.ReferenceIdeal.Term
open Cert.ReferenceIdeal.Facts₀

/-- A scalar broadcast over the hidden layer reads the scalar everywhere. -/
theorem bcast_scalar_apply (c : FVec Ideal S_ .f32) (j : S256x64x64x96.Idx) :
    broadcastInDim S256x64x64x96 ![] bcast_S_S256x64x64x96 c j = c ix0 :=
  broadcastInDim_apply _ _ c j ix0 (fun a => a.elim0)

/-- The reference's activation at an index is the activation of the entry there. -/
theorem eluR_apply (x : FVec Ideal S256x64x64x96 .f32) (j : S256x64x64x96.Idx) :
    eluR x j = Cert.Tiles.act (x j) := by
  unfold eluR Cert.Tiles.act
  simp only [select_apply, cmpf_apply, mulf_apply, Host.expm1, id]
  rw [bcast_scalar_apply, bcast_scalar_apply]
  simp only [constant_apply]
  by_cases hb : FloatOps.cmpf (F := Ideal) (φ := .f32) .ogt (x j) (Ideal.ofBits .f32 0x00000000#32) = 1#1
  · rw [hb, select_one, select_one]
  · rw [eq_zero_of_ne_one hb, select_zero, select_zero, select_zero, Ideal.hostUnary_expm1_def, Ideal.ofBits_one_f32, one_mul]

end Cert.ReferenceIdeal.HandValue

end
-- ==== Proof.RefValue.lean ====
/-
  The reference's network read at an index: on the tiles, the reference's result at (block b, tile (r, c), entry o) is
  the two-layer network's value there.
-/
import Idealize.ShloMosaic.Lib.Pipeline.Value
import Idealize.ShloMosaic.Lib.ValueIdx
import Idealize.ShloMosaic.PureOps.Ideal.Laws
import Idealize.ShloMosaic.Lib.IdealHost
import proofs.«156347_j26594437497233_1_alg».proof.Proof.Spec
import proofs.«156347_j26594437497233_1_alg».proof.Proof.RefTerm
import proofs.«156347_j26594437497233_1_alg».proof.Proof.LibBatchedDot
import proofs.«156347_j26594437497233_1_alg».proof.Proof.RefValueLin
import proofs.«156347_j26594437497233_1_alg».proof.Proof.RefValuePos
import proofs.«156347_j26594437497233_1_alg».proof.Proof.RefValueElu

noncomputable section

namespace Cert.ReferenceIdeal.HandValue

open Idealize.ShloMosaic Idealize.ShloMosaic.ValueIdx Cert.ReferenceIdeal Cert.ReferenceIdeal.Term
open Cert.ReferenceIdeal.Facts₀

open Cert.Tiles (tile)

/-- The second bias (and the scale) broadcast over the tiles reads the entry of the block and output unit. -/
theorem bias2_apply (a6 : FVec Ideal S256x16 .f32) (b : Fin 256) (t : Fin 4096) (o : Fin 16) :
    broadcastInDim S256x4096x16 ![0, 1, 2] bcast_S256x1x16_S256x4096x16_0_1_2
      (broadcastInDim S256x1x16 ![0, 2] bcast_S256x16_S256x1x16_0_2 a6) (ix3 b t o) = a6 (ix2 b o) := by
  refine (broadcastInDim_apply _ _ _ (ix3 b t o) (ix3 b (0 : Fin 1) o) ?_).trans ?_
  · intro a
    match a with
    | ⟨0, _⟩ => rfl
    | ⟨1, _⟩ => rfl
    | ⟨2, _⟩ => rfl
  · refine broadcastInDim_apply _ _ _ _ (ix2 b o) ?_
    intro a
    match a with
    | ⟨0, _⟩ => rfl
    | ⟨1, _⟩ => rfl

/-- The first layer before the activation, as the reference computes it, is the specification's. -/
theorem preR_apply (X : FVec Ideal S256x4096x16 .f32) (X4 : FVec Ideal Cert.Tiles.SX .f32)
    (hX : ∀ (b : Fin 256) (r c : Fin 64) (k : Fin 16), X (ix3 b (tile r c) k) = X4 (ix4 b r c k))
    (a1 : FVec Ideal S256x16x96 .f32) (a2 : FVec Ideal S256x96 .f32) (a3 a4 : FVec Ideal S256x64x8 .f32)
    (b : Fin 256) (r c : Fin 64) (h : Fin 96) :
    posR (linR X a1 a2) a3 a4 (ix4 b r c h) = Cert.Tiles.pre X4 a1 a2 a3 a4 b r c h := by
  rw [posR_apply, linR_apply]
  unfold Cert.Tiles.pre
  simp only [hX]

/-- The reference's network at (b, tile (r, c), o). -/
theorem midR_apply (X : FVec Ideal S256x4096x16 .f32) (X4 : FVec Ideal Cert.Tiles.SX .f32)
    (hX : ∀ (b : Fin 256) (r c : Fin 64) (k : Fin 16), X (ix3 b (Cert.Tiles.tile r c) k) = X4 (ix4 b r c k))
    (a1 : FVec Ideal S256x16x96 .f32) (a2 : FVec Ideal S256x96 .f32) (a3 a4 : FVec Ideal S256x64x8 .f32)
    (a5 : FVec Ideal S256x96x16 .f32) (a6 a7 : FVec Ideal S256x16 .f32)
    (b : Fin 256) (r c : Fin 64) (o : Fin 16) :
    midR X a1 a2 a3 a4 a5 a6 a7 (ix3 b (Cert.Tiles.tile r c) o) = Cert.Tiles.outAt X4 a1 a2 a3 a4 a5 a6 a7 b r c o := by
  unfold midR Cert.Tiles.outAt
  rw [addf_apply, addf_apply, mulf_apply, bias2_apply, bias2_apply, hX]
  simp only [Host.dotGeneral]
  rw [Ideal.dotGeneral_apply, Cert.LibBatchedDot.sum_eq _ rfl rfl rfl rfl rfl rfl]
  have hs : ∀ h : Fin 96,
      shapeCast S256x4096x96 (eluR (posR (linR X a1 a2) a3 a4)) shapeCasts_S256x64x64x96_S256x4096x96 (ix3 b (tile r c) h)
        = Cert.Tiles.act (Cert.Tiles.pre X4 a1 a2 a3 a4 b r c h) := fun h => by
    rw [shapeCast_apply _ _ (ix3 b (tile r c) h) (ix4 b r c h) (hidden_pos b r c h).symm, eluR_apply,
      preR_apply X X4 hX]
  simp only [hs]

end Cert.ReferenceIdeal.HandValue

end
-- ==== Proof.Bridge.lean ====
/-
  The two programs compute one function: the reference's network on merged tiles, read entry by entry, is the
  specification on the kernel's tiles, and the two layouts of the matrix agree going in and coming out.
-/
import proofs.«156347_j26594437497233_1_alg».proof.Proof.BridgeLayout
import proofs.«156347_j26594437497233_1_alg».proof.Proof.RefValue

noncomputable section

namespace Cert.Bridge

open Idealize.ShloMosaic Idealize.ShloMosaic.ValueIdx Cert.Tiles

/-- The reference's result is the specification on the kernel's tiles, laid back into the matrix the kernel's way. -/
theorem result_eq (a0 : FVec Ideal Cert.KernelIdeal.S4096x4096 .f32) (a1 : FVec Ideal Cert.KernelIdeal.S256x16x96 .f32)
    (a2 : FVec Ideal Cert.KernelIdeal.S256x96 .f32) (a3 a4 : FVec Ideal Cert.KernelIdeal.S256x64x8 .f32)
    (a5 : FVec Ideal Cert.KernelIdeal.S256x96x16 .f32) (a6 a7 : FVec Ideal Cert.KernelIdeal.S256x16 .f32) :
    Cert.ReferenceIdeal.Term.refOut (F := Ideal) a0 a1 a2 a3 a4 a5 a6 a7
      = Cert.KernelIdeal.Term.tailK (F := Ideal) (Cert.Tiles.out (Cert.KernelIdeal.Term.tilesK (F := Ideal) a0) a1 a2 a3 a4 a5 a6 a7) := by
  unfold Cert.ReferenceIdeal.Term.refOut
  refine tails_eq _ _ fun b r c o => ?_
  rw [Cert.Tiles.out_apply]
  exact Cert.ReferenceIdeal.HandValue.midR_apply _ _ (tiles_eq a0) a1 a2 a3 a4 a5 a6 a7 b r c o

end Cert.Bridge

end
-- ==== Proof.lean ====
/-
  The certificate: a 4096 × 4096 matrix is cut into 256 blocks of 64 × 64 tiles of 16 entries, and per block a small
  two-layer network maps every tile to 16 new entries — tile against `w1`, bias, the tile row's and tile column's
  positional rows on the first two bands of eight hidden units, `x ↦ x` on the positives and `eˣ − 1` elsewhere,
  the hidden units against `w2`, bias, plus the tile itself scaled entry by entry — after which the tiles are laid
  back into the matrix. The kernel does it on 16 blocks × 16 tile rows per grid point with its products taken on
  operands narrowed to a shorter float format; over the extended reals the narrowing is the identity and a product
  into a zero accumulator is the plain sum, so each grid point's block is the block of the one function
  `Cert.Tiles.out` (Spec), and the blocks tile the array. The reference merges a block's tile row and column into one
  axis and adds the positional rows by two scattered additions on bands of the hidden axis; read entry by entry it is
  the same function, `eˣ − 1` spelt as `1 · expm1`. The two layouts of the matrix into tiles, and back, are re-castings
  of one array, so they agree at equal row-major positions. No law of the extended reals beyond `1 · x = x` is used:
  the precondition is never opened.
-/
import proofs.«156347_j26594437497233_1_alg».proof.Defs
import proofs.«156347_j26594437497233_1_alg».proof.Proof.Gen.Kernel
import proofs.«156347_j26594437497233_1_alg».proof.Proof.Gen.Kernel.Frame
import proofs.«156347_j26594437497233_1_alg».proof.Proof.Gen.KernelIdeal
import proofs.«156347_j26594437497233_1_alg».proof.Proof.Gen.KernelIdeal.Frame
import proofs.«156347_j26594437497233_1_alg».proof.Proof.Gen.ReferenceIdeal
import proofs.«156347_j26594437497233_1_alg».proof.Proof.Gen.Pre_finite_inputs
import proofs.«156347_j26594437497233_1_alg».proof.Proof.KValue
import proofs.«156347_j26594437497233_1_alg».proof.Proof.RefRun
import proofs.«156347_j26594437497233_1_alg».proof.Proof.Bridge

noncomputable section

namespace Cert.Proof

open Idealize.ShloMosaic Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- Both idealized programs end with the specification's matrix: the kernel's run names it, and the reference's result
    is the same function of arguments that agree. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5, e6, e7⟩ := hagree c
  rw [e0, e1, e2, e3, e4, e5, e6, e7]
  exact Cert.Bridge.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
